-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1119744x128 : Shape := ⟨2, ![1119744, 128]⟩
abbrev S995328 : Shape := ⟨1, ![995328]⟩
abbrev S110592 : Shape := ⟨1, ![110592]⟩
abbrev S12288 : Shape := ⟨1, ![12288]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S1119744x128 : S_.BroadcastsInDim S1119744x128 (![] : Fin 0 → Fin S1119744x128.rank)
  reducesTo_S1119744x128_S_d0_1 : S1119744x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg17 : FVec F S128x1 .f32) (main_arg18 : FVec F S1 .f32) (main_v63 : IVec S_ 1) (main_v67 : IVec S_ 1) : IVec S_ 1 :=
  let main_v68 : IVec S_ 1 := andi main_v63 main_v67
  let main_v69 : FVec F S128x1 .f32 := Host.absf main_arg17
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg18
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg14 : FVec F S128 .f32) (main_arg15 : FVec F S128x128 .f32) (main_arg16 : FVec F S128 .f32) (main_arg17 : FVec F S128x1 .f32) (main_arg18 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg15
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg17 main_arg18 main_v63 main_v67

def fn_part2 {F : FTy → Type} [FloatOps F] (main_arg10 : FVec F S128x128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x1 .f32) (main_arg18 : FVec F S1 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg14 main_arg15 main_arg16 main_arg17 main_arg18 main_v48 main_v49 main_v50

def fn_part1 {F : FTy → Type} [FloatOps F] (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x1 .f32) (main_arg18 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_v33

def fn {F : FTy → Type} [FloatOps F] (main_arg0 : FVec F S1119744x128 .f32) (main_arg1 : IVec S995328 32) (main_arg2 : IVec S110592 32) (main_arg3 : IVec S12288 32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x1 .f32) (main_arg18 : FVec F S1 .f32) : IVec S_ 1 :=
  let main_v0 : FVec F S1119744x128 .f32 := Host.absf main_arg0
  let main_cst : FVec F S_ .f32 := constant S_ .f32 0x7F800000#32
  let main_v1 : FVec F S1119744x128 .f32 := broadcastInDim S1119744x128 ![] bcast_S_S1119744x128 main_cst
  let main_v2 : IVec S1119744x128 1 := cmpf .olt main_v0 main_v1
  let main_c : IVec S_ 1 := constantI S_ 1 1#1
  let main_v3 : IVec S_ 1 := (fun x v => Host.reduce IntOp.andi x v reducesTo_S1119744x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_arg16 main_arg17 main_arg18 main_v13 main_v16
-- ==== Kernel.lean ====
abbrev S1119744x128 : Shape := ⟨2, ![1119744, 128]⟩
abbrev S995328 : Shape := ⟨1, ![995328]⟩
abbrev S110592 : Shape := ⟨1, ![110592]⟩
abbrev S12288 : Shape := ⟨1, ![12288]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S995328x1 : Shape := ⟨2, ![995328, 1]⟩
abbrev S995328x128 : Shape := ⟨2, ![995328, 128]⟩
abbrev S124416x8x128 : Shape := ⟨3, ![124416, 8, 128]⟩
abbrev S124416x128 : Shape := ⟨2, ![124416, 128]⟩
abbrev S1x128 : Shape := ⟨2, ![1, 128]⟩
abbrev S512x128 : Shape := ⟨2, ![512, 128]⟩
abbrev S512x8x128 : Shape := ⟨3, ![512, 8, 128]⟩
abbrev S110592x1 : Shape := ⟨2, ![110592, 1]⟩
abbrev S110592x128 : Shape := ⟨2, ![110592, 128]⟩
abbrev S13824x8x128 : Shape := ⟨3, ![13824, 8, 128]⟩
abbrev S13824x128 : Shape := ⟨2, ![13824, 128]⟩
abbrev S12288x1 : Shape := ⟨2, ![12288, 1]⟩
abbrev S12288x128 : Shape := ⟨2, ![12288, 128]⟩
abbrev S1536x8x128 : Shape := ⟨3, ![1536, 8, 128]⟩
abbrev S1536x128 : Shape := ⟨2, ![1536, 128]⟩
abbrev S1024x128 : Shape := ⟨2, ![1024, 128]⟩
abbrev S1x1 : Shape := ⟨2, ![1, 1]⟩
abbrev S1024x1 : Shape := ⟨2, ![1024, 1]⟩
abbrev S512x1 : Shape := ⟨2, ![512, 1]⟩

abbrev nBuf : Space → Nat
  | .hbm => 70
  | .vmem => 35
  | .smem => 0
  | _ => 0

abbrev bufTy : (tb : Table) → Fin (tcTables nBuf tb) → BufTy
  | .hbm, ⟨0, _⟩ => ⟨S1119744x128, .f32⟩
  | .hbm, ⟨1, _⟩ => ⟨S995328, .i32⟩
  | .hbm, ⟨2, _⟩ => ⟨S110592, .i32⟩
  | .hbm, ⟨3, _⟩ => ⟨S12288, .i32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x1, .f32⟩
  | .hbm, ⟨18, _⟩ => ⟨S1, .f32⟩
  | .hbm, ⟨19, _⟩ => ⟨S_, .i32⟩
  | .hbm, ⟨20, _⟩ => ⟨S995328, .i32⟩
  | .hbm, ⟨21, _⟩ => ⟨S995328, .i1⟩
  | .hbm, ⟨22, _⟩ => ⟨S_, .i32⟩
  | .hbm, ⟨23, _⟩ => ⟨S995328, .i32⟩
  | .hbm, ⟨24, _⟩ => ⟨S995328, .i32⟩
  | .hbm, ⟨25, _⟩ => ⟨S995328, .i32⟩
  | .hbm, ⟨26, _⟩ => ⟨S995328x1, .i32⟩
  | .hbm, ⟨27, _⟩ => ⟨S995328x128, .f32⟩
  | .hbm, ⟨28, _⟩ => ⟨S124416x8x128, .f32⟩
  | .hbm, ⟨29, _⟩ => ⟨S124416x128, .f32⟩
  | .hbm, ⟨30, _⟩ => ⟨S1x128, .f32⟩
  | .hbm, ⟨31, _⟩ => ⟨S124416x128, .f32⟩
  | .hbm, ⟨32, _⟩ => ⟨S_, .i32⟩
  | .hbm, ⟨33, _⟩ => ⟨S110592, .i32⟩
  | .hbm, ⟨34, _⟩ => ⟨S110592, .i1⟩
  | .hbm, ⟨35, _⟩ => ⟨S_, .i32⟩
  | .hbm, ⟨36, _⟩ => ⟨S110592, .i32⟩
  | .hbm, ⟨37, _⟩ => ⟨S110592, .i32⟩
  | .hbm, ⟨38, _⟩ => ⟨S110592, .i32⟩
  | .hbm, ⟨39, _⟩ => ⟨S110592x1, .i32⟩
  | .hbm, ⟨40, _⟩ => ⟨S110592x128, .f32⟩
  | .hbm, ⟨41, _⟩ => ⟨S13824x8x128, .f32⟩
  | .hbm, ⟨42, _⟩ => ⟨S13824x128, .f32⟩
  | .hbm, ⟨43, _⟩ => ⟨S1x128, .f32⟩
  | .hbm, ⟨44, _⟩ => ⟨S13824x128, .f32⟩
  | .hbm, ⟨45, _⟩ => ⟨S_, .i32⟩
  | .hbm, ⟨46, _⟩ => ⟨S12288, .i32⟩
  | .hbm, ⟨47, _⟩ => ⟨S12288, .i1⟩
  | .hbm, ⟨48, _⟩ => ⟨S_, .i32⟩
  | .hbm, ⟨49, _⟩ => ⟨S12288, .i32⟩
  | .hbm, ⟨50, _⟩ => ⟨S12288, .i32⟩
  | .hbm, ⟨51, _⟩ => ⟨S12288, .i32⟩
  | .hbm, ⟨52, _⟩ => ⟨S12288x1, .i32⟩
  | .hbm, ⟨53, _⟩ => ⟨S12288x128, .f32⟩
  | .hbm, ⟨54, _⟩ => ⟨S1536x8x128, .f32⟩
  | .hbm, ⟨55, _⟩ => ⟨S1536x128, .f32⟩
  | .hbm, ⟨56, _⟩ => ⟨S1x128, .f32⟩
  | .hbm, ⟨57, _⟩ => ⟨S1536x128, .f32⟩
  | .hbm, ⟨58, _⟩ => ⟨S512x128, .f32⟩
  | .hbm, ⟨59, _⟩ => ⟨S512x128, .f32⟩
  | .hbm, ⟨60, _⟩ => ⟨S512x128, .f32⟩
  | .hbm, ⟨61, _⟩ => ⟨S512x128, .f32⟩
  | .hbm, ⟨62, _⟩ => ⟨S512x128, .f32⟩
  | .hbm, ⟨63, _⟩ => ⟨S1024x128, .f32⟩
  | .hbm, ⟨64, _⟩ => ⟨S1x128, .f32⟩
  | .hbm, ⟨65, _⟩ => ⟨S1x128, .f32⟩
  | .hbm, ⟨66, _⟩ => ⟨S1x1, .f32⟩
  | .hbm, ⟨67, _⟩ => ⟨S1024x1, .f32⟩
  | .hbm, ⟨68, _⟩ => ⟨S512x1, .f32⟩
  | .hbm, ⟨69, _⟩ => ⟨S512x1, .f32⟩
  | .local _ .vmem, ⟨0, _⟩ => ⟨S512x128, .f32⟩
  | .local _ .vmem, ⟨1, _⟩ => ⟨S512x128, .f32⟩
  | .local _ .vmem, ⟨2, _⟩ => ⟨S512x8x128, .f32⟩
  | .local _ .vmem, ⟨3, _⟩ => ⟨S512x8x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x8x128, .f32⟩
  | .local _ .vmem, ⟨12, _⟩ => ⟨S512x8x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x8x128, .f32⟩
  | .local _ .vmem, ⟨21, _⟩ => ⟨S512x8x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S512x128, .f32⟩
  | .local _ .vmem, ⟨26, _⟩ => ⟨S512x128, .f32⟩
  | .local _ .vmem, ⟨27, _⟩ => ⟨S1024x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S128x1, .f32⟩
  | .local _ .vmem, ⟨33, _⟩ => ⟨S1x1, .f32⟩
  | .local _ .vmem, ⟨34, _⟩ => ⟨S1024x1, .f32⟩
  | _, _ => ⟨S1119744x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_3 : Ref sig .tc := ⟨.hbm, 45, rfl⟩
abbrev main_v22 : Ref sig .tc := ⟨.hbm, 46, rfl⟩
abbrev main_v23 : Ref sig .tc := ⟨.hbm, 47, rfl⟩
abbrev main_c_4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34

abbrev nD : Nat := 1
abbrev τ : Topo := Topo.v7x

variable {F : FTy → Type} [FloatOps F]

abbrev grid0 : Pipeline.Grid := ⟨1, ![243], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![27], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![3], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x8x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1024x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1024x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  bcast_S_S995328 : S_.BroadcastsInDim S995328 (![] : Fin 0 → Fin S995328.rank)
  bcast_S995328_S995328x1_0 : S995328.BroadcastsInDim S995328x1 (![0] : Fin 1 → Fin S995328x1.rank)
  shapeCasts_S995328x128_S124416x8x128 : S995328x128.ShapeCasts S124416x8x128
  slices_S1119744x128_S124416x128_0_0 : S1119744x128.Slices ![0, 0] S124416x128
  shapeCasts_S128_S1x128 : S128.ShapeCasts S1x128
  inb_S512x8x128_S512x8x128_0_0_0 : ∀ a, (![0, 0, 0] : Fin 3 → Nat) a + S512x8x128.size a ≤ S512x8x128.size a
  h_S512x8x128 : 0 < S512x8x128.numel
  shapeCasts_S512x8x128_S512x8x128 : S512x8x128.ShapeCasts S512x8x128
  reduces_S512x8x128_S512x128 : S512x8x128.Reduces [1] S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  bcast_S_S110592 : S_.BroadcastsInDim S110592 (![] : Fin 0 → Fin S110592.rank)
  bcast_S110592_S110592x1_0 : S110592.BroadcastsInDim S110592x1 (![0] : Fin 1 → Fin S110592x1.rank)
  shapeCasts_S110592x128_S13824x8x128 : S110592x128.ShapeCasts S13824x8x128
  slices_S124416x128_S13824x128_0_0 : S124416x128.Slices ![0, 0] S13824x128
  bcast_S_S12288 : S_.BroadcastsInDim S12288 (![] : Fin 0 → Fin S12288.rank)
  bcast_S12288_S12288x1_0 : S12288.BroadcastsInDim S12288x1 (![0] : Fin 1 → Fin S12288x1.rank)
  shapeCasts_S12288x128_S1536x8x128 : S12288x128.ShapeCasts S1536x8x128
  slices_S13824x128_S1536x128_0_0 : S13824x128.Slices ![0, 0] S1536x128
  slices_S1536x128_S512x128_0_0 : S1536x128.Slices ![0, 0] S512x128
  slices_S1536x128_S512x128_512_0 : S1536x128.Slices ![512, 0] S512x128
  slices_S1536x128_S512x128_1024_0 : S1536x128.Slices ![1024, 0] S512x128
  concatenates_S512x128_S512x128_S1024x128_d0 : Shape.Concatenates [S512x128, S512x128] S1024x128 0
  shapeCasts_S1_S1x1 : S1.ShapeCasts S1x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S1x128_S1024x128 : S1x128.Broadcasts S1024x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  slices_S1024x1_S512x1_0_0 : S1024x1.Slices ![0, 0] S512x1
  slices_S1024x1_S512x1_512_0 : S1024x1.Slices ![512, 0] S512x1
  gather_S1119744x128_S995328x1_S995328x128_1_0_n_n_0_1_1128_wf : GatherDims.WF S1119744x128 S995328x1 S995328x128 [1] [0] [] [0] [] 1 ![1, 128]
  dot_S512x128_S128x128_S512x128_1_0_0_1_n_n_wf : DotDims.WF S512x128 S128x128 S512x128 [1] [0] [0] [1] [] []
  gather_S124416x128_S110592x1_S110592x128_1_0_n_n_0_1_1128_wf : GatherDims.WF S124416x128 S110592x1 S110592x128 [1] [0] [] [0] [] 1 ![1, 128]
  gather_S13824x128_S12288x1_S12288x128_1_0_n_n_0_1_1128_wf : GatherDims.WF S13824x128 S12288x1 S12288x128 [1] [0] [] [0] [] 1 ![1, 128]
  dot_S1024x128_S128x128_S1024x128_1_0_0_1_n_n_wf : DotDims.WF S1024x128 S128x128 S1024x128 [1] [0] [0] [1] [] []
  dot_S1024x128_S128x1_S1024x1_1_0_0_1_n_n_wf : DotDims.WF S1024x128 S128x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S124416x128.size a
  hwx0_0 : ∀ i : grid0.Coords, EltTy.bits .f32 = 32 ∨ (Rect.block (s := S124416x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8x128.size a ≤ S124416x8x128.size a
  hwx0_1 : ∀ i : grid0.Coords, EltTy.bits .f32 = 32 ∨ (Rect.block (s := S124416x8x128) S512x8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S124416x128.size a
  hwx0_5 : ∀ i : grid0.Coords, EltTy.bits .f32 = 32 ∨ (Rect.block (s := S124416x128) S512x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S13824x128.size a
  hwx1_0 : ∀ i : grid1.Coords, EltTy.bits .f32 = 32 ∨ (Rect.block (s := S13824x128) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x8x128.size a ≤ S13824x8x128.size a
  hwx1_1 : ∀ i : grid1.Coords, EltTy.bits .f32 = 32 ∨ (Rect.block (s := S13824x8x128) S512x8x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S13824x128.size a
  hwx1_5 : ∀ i : grid1.Coords, EltTy.bits .f32 = 32 ∨ (Rect.block (s := S13824x128) S512x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S1536x128.size a
  hwx2_0 : ∀ i : grid2.Coords, EltTy.bits .f32 = 32 ∨ (Rect.block (s := S1536x128) S512x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x8x128.size a ≤ S1536x8x128.size a
  hwx2_1 : ∀ i : grid2.Coords, EltTy.bits .f32 = 32 ∨ (Rect.block (s := S1536x8x128) S512x8x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x128.size a ≤ S1536x128.size a
  hwx2_5 : ∀ i : grid2.Coords, EltTy.bits .f32 = 32 ∨ (Rect.block (s := S1536x128) S512x128.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S1024x128.size a
  hwx3_0 : ∀ i : grid3.Coords, EltTy.bits .f32 = 32 ∨ (Rect.block (s := S1024x128) S1024x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x1.size a ≤ S128x1.size a
  hwx3_5 : ∀ i : grid3.Coords, EltTy.bits .f32 = 32 ∨ (Rect.block (s := S128x1) S128x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1024x1.size a ≤ S1024x1.size a
  hwx3_7 : ∀ i : grid3.Coords, EltTy.bits .f32 = 32 ∨ (Rect.block (s := S1024x1) S1024x1.size (cc3_transform_7 i) (hinb3_7 i)).WholeWords (EltTy.packing .f32)

variable [Facts₀]

def gather_S1119744x128_S995328x1_S995328x128_1_0_n_n_0_1_1128 : GatherDims S1119744x128 S995328x1 S995328x128 where
  offsetDims := [1]
  collapsedSliceDims := [0]
  operandBatchingDims := []
  startIndicesBatchingDims := []
  startIndexMap := [0]
  indexVectorDim := 1
  sliceSizes := ![1, 128]
  wf := gather_S1119744x128_S995328x1_S995328x128_1_0_n_n_0_1_1128_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def gather_S124416x128_S110592x1_S110592x128_1_0_n_n_0_1_1128 : GatherDims S124416x128 S110592x1 S110592x128 where
  offsetDims := [1]
  collapsedSliceDims := [0]
  operandBatchingDims := []
  startIndicesBatchingDims := []
  startIndexMap := [0]
  indexVectorDim := 1
  sliceSizes := ![1, 128]
  wf := gather_S124416x128_S110592x1_S110592x128_1_0_n_n_0_1_1128_wf
def gather_S13824x128_S12288x1_S12288x128_1_0_n_n_0_1_1128 : GatherDims S13824x128 S12288x1 S12288x128 where
  offsetDims := [1]
  collapsedSliceDims := [0]
  operandBatchingDims := []
  startIndicesBatchingDims := []
  startIndexMap := [0]
  indexVectorDim := 1
  sliceSizes := ![1, 128]
  wf := gather_S13824x128_S12288x1_S12288x128_1_0_n_n_0_1_1128_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

abbrev win0_0 : Pipeline.Window sig grid0 :=
  Pipeline.Window.ofSpec (Memref.whole main_v8) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S512x8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S512x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v30) S512x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S512x8x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S512x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v38) S1024x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg13) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg17) S128x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v41) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v42) S1024x1.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S1119744x128 : Shape := ⟨2, ![1119744, 128]⟩
abbrev S995328 : Shape := ⟨1, ![995328]⟩
abbrev S110592 : Shape := ⟨1, ![110592]⟩
abbrev S12288 : Shape := ⟨1, ![12288]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S995328x1 : Shape := ⟨2, ![995328, 1]⟩
abbrev S995328x128 : Shape := ⟨2, ![995328, 128]⟩
abbrev S124416x8x128 : Shape := ⟨3, ![124416, 8, 128]⟩
abbrev S124416x128 : Shape := ⟨2, ![124416, 128]⟩
abbrev S1x128 : Shape := ⟨2, ![1, 128]⟩
abbrev S110592x1 : Shape := ⟨2, ![110592, 1]⟩
abbrev S110592x128 : Shape := ⟨2, ![110592, 128]⟩
abbrev S13824x8x128 : Shape := ⟨3, ![13824, 8, 128]⟩
abbrev S13824x128 : Shape := ⟨2, ![13824, 128]⟩
abbrev S12288x1 : Shape := ⟨2, ![12288, 1]⟩
abbrev S12288x128 : Shape := ⟨2, ![12288, 128]⟩
abbrev S1536x8x128 : Shape := ⟨3, ![1536, 8, 128]⟩
abbrev S1536x128 : Shape := ⟨2, ![1536, 128]⟩
abbrev S512x128 : Shape := ⟨2, ![512, 128]⟩
abbrev S512x1 : Shape := ⟨2, ![512, 1]⟩
abbrev S1x1 : Shape := ⟨2, ![1, 1]⟩

abbrev nBuf : Space → Nat
  | .hbm => 132
  | .vmem => 0
  | .smem => 0
  | _ => 0

abbrev hbmTy0_0 (i : Nat) : BufTy := match i % 128 with
  | 0 => ⟨S1119744x128, .f32⟩
  | 1 => ⟨S995328, .i32⟩
  | 2 => ⟨S110592, .i32⟩
  | 3 => ⟨S12288, .i32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x1, .f32⟩
  | 18 => ⟨S1, .f32⟩
  | 19 => ⟨S_, .i32⟩
  | 20 => ⟨S995328, .i32⟩
  | 21 => ⟨S995328, .i1⟩
  | 22 => ⟨S_, .i32⟩
  | 23 => ⟨S995328, .i32⟩
  | 24 => ⟨S995328, .i32⟩
  | 25 => ⟨S995328, .i32⟩
  | 26 => ⟨S995328x1, .i32⟩
  | 27 => ⟨S995328x128, .f32⟩
  | 28 => ⟨S124416x8x128, .f32⟩
  | 29 => ⟨S_, .f32⟩
  | 30 => ⟨S124416x128, .f32⟩
  | 31 => ⟨S_, .f32⟩
  | 32 => ⟨S124416x128, .f32⟩
  | 33 => ⟨S124416x128, .f32⟩
  | 34 => ⟨S124416x128, .f32⟩
  | 35 => ⟨S124416x128, .f32⟩
  | 36 => ⟨S124416x128, .f32⟩
  | 37 => ⟨S124416x128, .f32⟩
  | 38 => ⟨S1x128, .f32⟩
  | 39 => ⟨S124416x128, .f32⟩
  | 40 => ⟨S124416x128, .f32⟩
  | 41 => ⟨S_, .f32⟩
  | 42 => ⟨S124416x128, .f32⟩
  | 43 => ⟨S124416x128, .f32⟩
  | 44 => ⟨S_, .i32⟩
  | 45 => ⟨S110592, .i32⟩
  | 46 => ⟨S110592, .i1⟩
  | 47 => ⟨S_, .i32⟩
  | 48 => ⟨S110592, .i32⟩
  | 49 => ⟨S110592, .i32⟩
  | 50 => ⟨S110592, .i32⟩
  | 51 => ⟨S110592x1, .i32⟩
  | 52 => ⟨S110592x128, .f32⟩
  | 53 => ⟨S13824x8x128, .f32⟩
  | 54 => ⟨S_, .f32⟩
  | 55 => ⟨S13824x128, .f32⟩
  | 56 => ⟨S_, .f32⟩
  | 57 => ⟨S13824x128, .f32⟩
  | 58 => ⟨S13824x128, .f32⟩
  | 59 => ⟨S13824x128, .f32⟩
  | 60 => ⟨S13824x128, .f32⟩
  | 61 => ⟨S13824x128, .f32⟩
  | 62 => ⟨S13824x128, .f32⟩
  | 63 => ⟨S1x128, .f32⟩
  | 64 => ⟨S13824x128, .f32⟩
  | 65 => ⟨S13824x128, .f32⟩
  | 66 => ⟨S_, .f32⟩
  | 67 => ⟨S13824x128, .f32⟩
  | 68 => ⟨S13824x128, .f32⟩
  | 69 => ⟨S_, .i32⟩
  | 70 => ⟨S12288, .i32⟩
  | 71 => ⟨S12288, .i1⟩
  | 72 => ⟨S_, .i32⟩
  | 73 => ⟨S12288, .i32⟩
  | 74 => ⟨S12288, .i32⟩
  | 75 => ⟨S12288, .i32⟩
  | 76 => ⟨S12288x1, .i32⟩
  | 77 => ⟨S12288x128, .f32⟩
  | 78 => ⟨S1536x8x128, .f32⟩
  | 79 => ⟨S_, .f32⟩
  | 80 => ⟨S1536x128, .f32⟩
  | 81 => ⟨S_, .f32⟩
  | 82 => ⟨S1536x128, .f32⟩
  | 83 => ⟨S1536x128, .f32⟩
  | 84 => ⟨S1536x128, .f32⟩
  | 85 => ⟨S1536x128, .f32⟩
  | 86 => ⟨S1536x128, .f32⟩
  | 87 => ⟨S1536x128, .f32⟩
  | 88 => ⟨S1x128, .f32⟩
  | 89 => ⟨S1536x128, .f32⟩
  | 90 => ⟨S1536x128, .f32⟩
  | 91 => ⟨S512x128, .f32⟩
  | 92 => ⟨S512x128, .f32⟩
  | 93 => ⟨S512x128, .f32⟩
  | 94 => ⟨S512x128, .f32⟩
  | 95 => ⟨S512x128, .f32⟩
  | 96 => ⟨S1x128, .f32⟩
  | 97 => ⟨S512x128, .f32⟩
  | 98 => ⟨S512x128, .f32⟩
  | 99 => ⟨S_, .f32⟩
  | 100 => ⟨S512x128, .f32⟩
  | 101 => ⟨S512x128, .f32⟩
  | 102 => ⟨S512x128, .f32⟩
  | 103 => ⟨S1x128, .f32⟩
  | 104 => ⟨S512x128, .f32⟩
  | 105 => ⟨S512x128, .f32⟩
  | 106 => ⟨S_, .f32⟩
  | 107 => ⟨S512x128, .f32⟩
  | 108 => ⟨S512x128, .f32⟩
  | 109 => ⟨S512x1, .f32⟩
  | 110 => ⟨S1x1, .f32⟩
  | 111 => ⟨S512x1, .f32⟩
  | 112 => ⟨S512x1, .f32⟩
  | 113 => ⟨S512x128, .f32⟩
  | 114 => ⟨S512x128, .f32⟩
  | 115 => ⟨S1x128, .f32⟩
  | 116 => ⟨S512x128, .f32⟩
  | 117 => ⟨S512x128, .f32⟩
  | 118 => ⟨S_, .f32⟩
  | 119 => ⟨S512x128, .f32⟩
  | 120 => ⟨S512x128, .f32⟩
  | 121 => ⟨S512x128, .f32⟩
  | 122 => ⟨S1x128, .f32⟩
  | 123 => ⟨S512x128, .f32⟩
  | 124 => ⟨S512x128, .f32⟩
  | 125 => ⟨S_, .f32⟩
  | 126 => ⟨S512x128, .f32⟩
  | 127 => ⟨S512x128, .f32⟩
  | _ => ⟨S1119744x128, .f32⟩

abbrev hbmTy0_1 (i : Nat) : BufTy := match i % 128 with
  | 0 => ⟨S512x1, .f32⟩
  | 1 => ⟨S1x1, .f32⟩
  | 2 => ⟨S512x1, .f32⟩
  | 3 => ⟨S512x1, .f32⟩
  | _ => ⟨S1119744x128, .f32⟩

abbrev hbmTy (i : Nat) : BufTy := match i / 128 with
  | 0 => hbmTy0_0 i
  | 1 => hbmTy0_1 i
  | _ => ⟨S1119744x128, .f32⟩

abbrev bufTy : (tb : Table) → Fin (tcTables nBuf tb) → BufTy
  | .hbm, ⟨i, _⟩ => hbmTy i
  | _, _ => ⟨S1119744x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_cst_1 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_call0_cst : Ref sig .tc := ⟨.hbm, 41, rfl⟩
abbrev main_call0_v0 : Ref sig .tc := ⟨.hbm, 42, rfl⟩
abbrev main_v18 : Ref sig .tc := ⟨.hbm, 43, rfl⟩
abbrev main_c_2 : Ref sig .tc := ⟨.hbm, 44, rfl⟩
abbrev main_v19 : Ref sig .tc := ⟨.hbm, 45, rfl⟩
abbrev main_v20 : Ref sig .tc := ⟨.hbm, 46, rfl⟩
abbrev main_c_3 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_4 : Ref sig .tc := ⟨.hbm, 54, rfl⟩
abbrev main_v27 : Ref sig .tc := ⟨.hbm, 55, rfl⟩
abbrev main_cst_5 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_call1_cst : Ref sig .tc := ⟨.hbm, 66, rfl⟩
abbrev main_call1_v0 : Ref sig .tc := ⟨.hbm, 67, rfl⟩
abbrev main_v37 : Ref sig .tc := ⟨.hbm, 68, rfl⟩
abbrev main_c_6 : Ref sig .tc := ⟨.hbm, 69, rfl⟩
abbrev main_v38 : Ref sig .tc := ⟨.hbm, 70, rfl⟩
abbrev main_v39 : Ref sig .tc := ⟨.hbm, 71, rfl⟩
abbrev main_c_7 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_8 : Ref sig .tc := ⟨.hbm, 79, rfl⟩
abbrev main_v46 : Ref sig .tc := ⟨.hbm, 80, rfl⟩
abbrev main_cst_9 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_call2_cst : Ref sig .tc := ⟨.hbm, 99, rfl⟩
abbrev main_call2_v0 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_call3_cst : Ref sig .tc := ⟨.hbm, 106, rfl⟩
abbrev main_call3_v0 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_call4_cst : Ref sig .tc := ⟨.hbm, 118, rfl⟩
abbrev main_call4_v0 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_call5_cst : Ref sig .tc := ⟨.hbm, 125, rfl⟩
abbrev main_call5_v0 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩

abbrev nD : Nat := 1
abbrev τ : Topo := Topo.v7x

variable {F : FTy → Type} [FloatOps F]

class Facts₀ : Prop where
  bcast_S_S995328 : S_.BroadcastsInDim S995328 (![] : Fin 0 → Fin S995328.rank)
  bcast_S995328_S995328x1_0 : S995328.BroadcastsInDim S995328x1 (![0] : Fin 1 → Fin S995328x1.rank)
  shapeCasts_S995328x128_S124416x8x128 : S995328x128.ShapeCasts S124416x8x128
  reducesTo_S124416x8x128_S124416x128_d1 : S124416x8x128.ReducesTo [1] S124416x128
  h_S_ : 0 < S_.numel
  bcast_S_S124416x128 : S_.BroadcastsInDim S124416x128 (![] : Fin 0 → Fin S124416x128.rank)
  slices_S1119744x128_S124416x128_0_0 : S1119744x128.Slices ![0, 0] S124416x128
  bcast_S128_S1x128_1 : S128.BroadcastsInDim S1x128 (![1] : Fin 1 → Fin S1x128.rank)
  bcast_S1x128_S124416x128_0_1 : S1x128.BroadcastsInDim S124416x128 (![0, 1] : Fin 2 → Fin S124416x128.rank)
  bcast_S_S110592 : S_.BroadcastsInDim S110592 (![] : Fin 0 → Fin S110592.rank)
  bcast_S110592_S110592x1_0 : S110592.BroadcastsInDim S110592x1 (![0] : Fin 1 → Fin S110592x1.rank)
  shapeCasts_S110592x128_S13824x8x128 : S110592x128.ShapeCasts S13824x8x128
  reducesTo_S13824x8x128_S13824x128_d1 : S13824x8x128.ReducesTo [1] S13824x128
  bcast_S_S13824x128 : S_.BroadcastsInDim S13824x128 (![] : Fin 0 → Fin S13824x128.rank)
  slices_S124416x128_S13824x128_0_0 : S124416x128.Slices ![0, 0] S13824x128
  bcast_S1x128_S13824x128_0_1 : S1x128.BroadcastsInDim S13824x128 (![0, 1] : Fin 2 → Fin S13824x128.rank)
  bcast_S_S12288 : S_.BroadcastsInDim S12288 (![] : Fin 0 → Fin S12288.rank)
  bcast_S12288_S12288x1_0 : S12288.BroadcastsInDim S12288x1 (![0] : Fin 1 → Fin S12288x1.rank)
  shapeCasts_S12288x128_S1536x8x128 : S12288x128.ShapeCasts S1536x8x128
  reducesTo_S1536x8x128_S1536x128_d1 : S1536x8x128.ReducesTo [1] S1536x128
  bcast_S_S1536x128 : S_.BroadcastsInDim S1536x128 (![] : Fin 0 → Fin S1536x128.rank)
  slices_S13824x128_S1536x128_0_0 : S13824x128.Slices ![0, 0] S1536x128
  bcast_S1x128_S1536x128_0_1 : S1x128.BroadcastsInDim S1536x128 (![0, 1] : Fin 2 → Fin S1536x128.rank)
  slices_S1536x128_S512x128_0_0 : S1536x128.Slices ![0, 0] S512x128
  slices_S1536x128_S512x128_512_0 : S1536x128.Slices ![512, 0] S512x128
  slices_S1536x128_S512x128_1024_0 : S1536x128.Slices ![1024, 0] S512x128
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S1119744x128_S995328x1_S995328x128_1_0_n_n_0_1_1128_wf : GatherDims.WF S1119744x128 S995328x1 S995328x128 [1] [0] [] [0] [] 1 ![1, 128]
  dot_S124416x128_S128x128_S124416x128_1_0_0_1_n_n_wf : DotDims.WF S124416x128 S128x128 S124416x128 [1] [0] [0] [1] [] []
  gather_S124416x128_S110592x1_S110592x128_1_0_n_n_0_1_1128_wf : GatherDims.WF S124416x128 S110592x1 S110592x128 [1] [0] [] [0] [] 1 ![1, 128]
  dot_S13824x128_S128x128_S13824x128_1_0_0_1_n_n_wf : DotDims.WF S13824x128 S128x128 S13824x128 [1] [0] [0] [1] [] []
  gather_S13824x128_S12288x1_S12288x128_1_0_n_n_0_1_1128_wf : GatherDims.WF S13824x128 S12288x1 S12288x128 [1] [0] [] [0] [] 1 ![1, 128]
  dot_S1536x128_S128x128_S1536x128_1_0_0_1_n_n_wf : DotDims.WF S1536x128 S128x128 S1536x128 [1] [0] [0] [1] [] []
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []

variable [Facts₀]

def gather_S1119744x128_S995328x1_S995328x128_1_0_n_n_0_1_1128 : GatherDims S1119744x128 S995328x1 S995328x128 where
  offsetDims := [1]
  collapsedSliceDims := [0]
  operandBatchingDims := []
  startIndicesBatchingDims := []
  startIndexMap := [0]
  indexVectorDim := 1
  sliceSizes := ![1, 128]
  wf := gather_S1119744x128_S995328x1_S995328x128_1_0_n_n_0_1_1128_wf
def dot_S124416x128_S128x128_S124416x128_1_0_0_1_n_n : DotDims S124416x128 S128x128 S124416x128 where
  lhsContracting := [1]
  rhsContracting := [0]
  lhsNonContracting := [0]
  rhsNonContracting := [1]
  lhsBatch := []
  rhsBatch := []
  wf := dot_S124416x128_S128x128_S124416x128_1_0_0_1_n_n_wf
def gather_S124416x128_S110592x1_S110592x128_1_0_n_n_0_1_1128 : GatherDims S124416x128 S110592x1 S110592x128 where
  offsetDims := [1]
  collapsedSliceDims := [0]
  operandBatchingDims := []
  startIndicesBatchingDims := []
  startIndexMap := [0]
  indexVectorDim := 1
  sliceSizes := ![1, 128]
  wf := gather_S124416x128_S110592x1_S110592x128_1_0_n_n_0_1_1128_wf
def dot_S13824x128_S128x128_S13824x128_1_0_0_1_n_n : DotDims S13824x128 S128x128 S13824x128 where
  lhsContracting := [1]
  rhsContracting := [0]
  lhsNonContracting := [0]
  rhsNonContracting := [1]
  lhsBatch := []
  rhsBatch := []
  wf := dot_S13824x128_S128x128_S13824x128_1_0_0_1_n_n_wf
def gather_S13824x128_S12288x1_S12288x128_1_0_n_n_0_1_1128 : GatherDims S13824x128 S12288x1 S12288x128 where
  offsetDims := [1]
  collapsedSliceDims := [0]
  operandBatchingDims := []
  startIndicesBatchingDims := []
  startIndexMap := [0]
  indexVectorDim := 1
  sliceSizes := ![1, 128]
  wf := gather_S13824x128_S12288x1_S12288x128_1_0_n_n_0_1_1128_wf
def dot_S1536x128_S128x128_S1536x128_1_0_0_1_n_n : DotDims S1536x128 S128x128 S1536x128 where
  lhsContracting := [1]
  rhsContracting := [0]
  lhsNonContracting := [0]
  rhsNonContracting := [1]
  lhsBatch := []
  rhsBatch := []
  wf := dot_S1536x128_S128x128_S1536x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.Spec.lean ====
/-
  The mathematics both programs compute, one output row at a time.

  A mean-aggregating graph layer sends a node's own feature row `s` and the feature rows `g 0 … g 7` of its eight
  sampled neighbours to the row  `s · Ws + (⅛ Σⱼ g j) · Wn + b`  — the mean of the eight neighbour rows is their
  sum divided by eight — optionally clipped below at zero.  The link predictor sends a row `x` through two clipped
  affine maps and a last affine map onto one number.  Every entry is an extended real; only sums, products, the
  quotient by eight and maxima occur, so no law beyond reading each operation at an index is needed.
-/
import Idealize.ShloMosaic.PureOps.Ideal
import Idealize.ShloMosaic.PureOps.Ideal.Laws
import Idealize.ShloMosaic.Lib.ValueIdx

noncomputable section

open scoped BigOperators

namespace Cert.Sage

open Idealize.ShloMosaic

/-- The divisor of the neighbour mean: the float `8.0`. -/
abbrev eight : EReal := Ideal.ofBits .f32 0x41000000#32

/-- The clipping level: the float `0.0`. -/
abbrev zero : EReal := Ideal.ofBits .f32 0x00000000#32

/-- Entry `q` of a layer's output row before clipping: the node's own row `s` against column `q` of `ws`, plus the
    mean of its eight neighbour rows `g` against column `q` of `wn`, plus the bias. -/
def layerPre (s : Fin 128 → EReal) (g : Fin 8 → Fin 128 → EReal) (ws wn : Fin 128 → Fin 128 → EReal)
    (b : Fin 128 → EReal) (q : Fin 128) : EReal :=
  ((∑ k : Fin 128, s k * ws k q) + ∑ k : Fin 128, Ideal.div (∑ j : Fin 8, g j k) eight * wn k q) + b q

/-- The same entry clipped below at zero. -/
def layerRelu (s : Fin 128 → EReal) (g : Fin 8 → Fin 128 → EReal) (ws wn : Fin 128 → Fin 128 → EReal)
    (b : Fin 128 → EReal) (q : Fin 128) : EReal :=
  max (layerPre s g ws wn b q) zero

/-- One clipped affine map of a row: entry `j` of `max (x · w + b) 0`. -/
def dense (x : Fin 128 → EReal) (w : Fin 128 → Fin 128 → EReal) (b : Fin 128 → EReal) (j : Fin 128) : EReal :=
  max ((∑ k : Fin 128, x k * w k j) + b j) zero

/-- The predictor's score of a row: two clipped affine maps, then the affine map onto one number. -/
def score (x : Fin 128 → EReal) (w1 : Fin 128 → Fin 128 → EReal) (b1 : Fin 128 → EReal)
    (w2 : Fin 128 → Fin 128 → EReal) (b2 : Fin 128 → EReal) (w3 : Fin 128 → EReal) (b3 : EReal) : EReal :=
  (∑ k : Fin 128, dense (dense x w1 b1) w2 b2 k * w3 k) + b3

end Cert.Sage

end
-- ==== Proof.SagePay.lean ====
/-
  The graph layer's block arithmetic read at an entry: what the kernel body stores at row `p`, column `q` of its
  512-row output block is the layer's formula of row `p` of the own-feature block, rows `(p, ·)` of the neighbour
  block, the two weight matrices and the bias row.
-/
import proofs.«135038_j60799557042640_1_alg».proof.Proof.Gen.KernelIdeal.Skeleton
import proofs.«135038_j60799557042640_1_alg».proof.Proof.Spec
import Idealize.ShloMosaic.Lib.Pipeline.Value
import Idealize.ShloMosaic.Lib.ValueLayout

noncomputable section

open scoped BigOperators

namespace Cert.Sage

open Idealize.ShloMosaic Idealize.ShloMosaic.ValueIdx Cert.KernelIdeal Cert.KernelIdeal.Gen

/-- The contraction sum of the block product at the output entry `(p, q)` runs over the 128 products
    `lhs (p, k) · rhs (k, q)`. -/
private theorem dot_sum (lhs : S512x128.Idx → EReal) (rhs : S128x128.Idx → EReal) (p : Fin 512) (q : Fin 128) :
    ∑ k : dot_S512x128_S128x128_S512x128_1_0_0_1_n_n.contr.Idx,
        lhs (dot_S512x128_S128x128_S512x128_1_0_0_1_n_n.lhsIdx (ix2 p q) k)
          * rhs (dot_S512x128_S128x128_S512x128_1_0_0_1_n_n.rhsIdx (ix2 p q) k)
      = ∑ k : Fin 128, lhs (ix2 p k) * rhs (ix2 k q) := by
  -- re-index the sum by the one contracted coordinate
  rw [← Equiv.sum_comp (contrEquiv1 dot_S512x128_S128x128_S512x128_1_0_0_1_n_n 128 rfl rfl).symm]
  refine Finset.sum_congr rfl fun k _ => ?_
  -- the left operand is read at (p, k), the right operand at (k, q)
  have hl : dot_S512x128_S128x128_S512x128_1_0_0_1_n_n.lhsIdx (ix2 p q)
      ((contrEquiv1 dot_S512x128_S128x128_S512x128_1_0_0_1_n_n 128 rfl rfl).symm k) = ix2 p k := by
    funext a
    refine Fin.ext ?_
    match a with
    | ⟨0, _⟩ => rfl
    | ⟨1, _⟩ =>
      exact (dot_S512x128_S128x128_S512x128_1_0_0_1_n_n.lhsIdx_val_of_single (cl := 1) rfl _ _).trans
        (contrEquiv1_symm_val dot_S512x128_S128x128_S512x128_1_0_0_1_n_n 128 rfl rfl k)
  have hr : dot_S512x128_S128x128_S512x128_1_0_0_1_n_n.rhsIdx (ix2 p q)
      ((contrEquiv1 dot_S512x128_S128x128_S512x128_1_0_0_1_n_n 128 rfl rfl).symm k) = ix2 k q := by
    funext a
    refine Fin.ext ?_
    match a with
    | ⟨0, _⟩ =>
      exact (dot_S512x128_S128x128_S512x128_1_0_0_1_n_n.rhsIdx_val_of_single (cr := 0) rfl _ _).trans
        (contrEquiv1_symm_val dot_S512x128_S128x128_S512x128_1_0_0_1_n_n 128 rfl rfl k)
    | ⟨1, _⟩ => rfl
  rw [hl, hr]

/-- The block product into the zero block, entry by entry. -/
private theorem matmul_apply' {φ₁ φ₂ : FTy} (lhs : FVec Ideal S512x128 φ₁) (rhs : FVec Ideal S128x128 φ₂)
    (p : Fin 512) (q : Fin 128) :
    matmul dot_S512x128_S128x128_S512x128_1_0_0_1_n_n none lhs rhs (constant S512x128 .f32 0x00000000#32) (ix2 p q)
      = ∑ k : Fin 128, lhs (ix2 p k) * rhs (ix2 k q) := by
  show FloatOps.matmul dot_S512x128_S128x128_S512x128_1_0_0_1_n_n none lhs rhs (constant S512x128 .f32 0x00000000#32) (ix2 p q) = _
  rw [Ideal.matmul_constant_zero_apply]
  exact dot_sum lhs rhs p q

/-- The neighbour sum: the lane sum over axis 1 of the neighbour block at `(p, k)`. -/
private theorem nbr_sum (x1 : Vec Ideal S512x8x128 .f32) (hφ : FKind.Formats .f32)
    (hacc : (0x00000000#32 : BitVec 32) = FKind.add.neutral .f32 hφ) (p : Fin 512) (k : Fin 128) :
    multiReduction (F := Ideal) .add [1] S512x128 x1 0x00000000#32 reduces_S512x8x128_S512x128 hφ hacc (ix2 p k)
      = ∑ j : Fin 8, x1 (ix3 p j k) := by
  refine (Ideal.multiReduction_add_single x1 _ reduces_S512x8x128_S512x128 hφ hacc (ix2 p k)).trans ?_
  refine Finset.sum_congr rfl fun j _ => ?_
  -- the index over (p, k) with j inserted on axis 1 is (p, j, k)
  congr 1
  funext a
  refine Fin.ext ?_
  match a with
  | ⟨0, _⟩ => rfl
  | ⟨1, _⟩ => rfl
  | ⟨2, _⟩ => rfl

/-- The part the three layers share, before clipping. -/
private theorem pre_apply (x1 : Vec Ideal S512x8x128 .f32) (x0 : Vec Ideal S512x128 .f32) (ws wn : Vec Ideal S128x128 .f32)
    (b : Vec Ideal S1x128 .f32) (p : Fin 512) (q : Fin 128) :
    k2_pay1 (F := Ideal) x1 x0 ws wn b (ix2 p q)
      = layerPre (fun k => x0 (ix2 p k)) (fun j k => x1 (ix3 p j k)) (fun k q => ws (ix2 k q)) (fun k q => wn (ix2 k q))
          (fun q => b (ix2 0 q)) q := by
  unfold k2_pay1
  dsimp only
  -- the casts between equal shapes are the identity; sums and products are read entry by entry
  rw [shapeCast_self, shapeCast_self, shapeCast_self]
  rw [addf_apply, addf_apply, matmul_apply', matmul_apply']
  simp only [truncf_apply, divf_apply, broadcast_apply]
  -- the bias block repeats the bias row: its entry (p, q) is the row's entry (0, q)
  rw [broadcastTo_apply b broadcasts_S1x128_S512x128 (ix2 p q) (ix2 0 q) (by
    intro a
    match a with
    | ⟨0, _⟩ => rfl
    | ⟨1, _⟩ => rfl)]
  unfold layerPre
  -- what is left is the neighbour sum inside the second product
  refine congrArg (· + b (ix2 0 q)) (congrArg (_ + ·) (Finset.sum_congr rfl fun k _ => ?_))
  exact congrArg (fun s => Ideal.div s eight * wn (ix2 k q)) (nbr_sum x1 _ _ p k)

/-- The first layer's stored block at `(p, q)`. -/
theorem k0_pay1_apply (x1 : Vec Ideal S512x8x128 .f32) (x0 : Vec Ideal S512x128 .f32) (ws wn : Vec Ideal S128x128 .f32)
    (b : Vec Ideal S1x128 .f32) (p : Fin 512) (q : Fin 128) :
    k0_pay1 (F := Ideal) x1 x0 ws wn b (ix2 p q)
      = layerRelu (fun k => x0 (ix2 p k)) (fun j k => x1 (ix3 p j k)) (fun k q => ws (ix2 k q)) (fun k q => wn (ix2 k q))
          (fun q => b (ix2 0 q)) q := by
  -- the stored value is the unclipped entry clipped below at zero
  show max (k2_pay1 (F := Ideal) x1 x0 ws wn b (ix2 p q)) zero = _
  rw [pre_apply]
  rfl

/-- The second layer's stored block at `(p, q)`. -/
theorem k1_pay1_apply (x1 : Vec Ideal S512x8x128 .f32) (x0 : Vec Ideal S512x128 .f32) (ws wn : Vec Ideal S128x128 .f32)
    (b : Vec Ideal S1x128 .f32) (p : Fin 512) (q : Fin 128) :
    k1_pay1 (F := Ideal) x1 x0 ws wn b (ix2 p q)
      = layerRelu (fun k => x0 (ix2 p k)) (fun j k => x1 (ix3 p j k)) (fun k q => ws (ix2 k q)) (fun k q => wn (ix2 k q))
          (fun q => b (ix2 0 q)) q := by
  -- the stored value is the unclipped entry clipped below at zero
  show max (k2_pay1 (F := Ideal) x1 x0 ws wn b (ix2 p q)) zero = _
  rw [pre_apply]
  rfl

/-- The third layer's stored block at `(p, q)`: no clipping. -/
theorem k2_pay1_apply (x1 : Vec Ideal S512x8x128 .f32) (x0 : Vec Ideal S512x128 .f32) (ws wn : Vec Ideal S128x128 .f32)
    (b : Vec Ideal S1x128 .f32) (p : Fin 512) (q : Fin 128) :
    k2_pay1 (F := Ideal) x1 x0 ws wn b (ix2 p q)
      = layerPre (fun k => x0 (ix2 p k)) (fun j k => x1 (ix3 p j k)) (fun k q => ws (ix2 k q)) (fun k q => wn (ix2 k q))
          (fun q => b (ix2 0 q)) q :=
  pre_apply x1 x0 ws wn b p q

end Cert.Sage

end
-- ==== Proof.RegionArr0.lean ====
/-
  The first layer's output array after its region has run, read at an entry: the 512-row blocks the grid points
  write back tile the array, and row `P` lies in the block of point `P / 512`, at row `P % 512` of it; so entry `(P, q)`
  is the layer's formula of row `P` of the own-feature array, rows `(P, ·)` of the neighbour array, the weights and the bias.
-/
import proofs.«135038_j60799557042640_1_alg».proof.Proof.Gen.KernelIdeal.Frame
import proofs.«135038_j60799557042640_1_alg».proof.Proof.SagePay
import Idealize.ShloMosaic.Lib.Pipeline.Value

set_option maxRecDepth 16384

noncomputable section

open scoped BigOperators

namespace Cert.Sage

open Idealize.ShloMosaic Idealize.ShloMosaic.TcCoe Idealize.ShloMosaic.ValueIdx Idealize.SL.Sem Cert.KernelIdeal Cert.KernelIdeal.Gen
open Idealize.ShloMosaic.Pipeline (Dat Cfg Window)

-- the core's buffer contents when the region is entered
variable (V : (c : Dev nD) → (b : Ref sig .tc) → Buf (Elt Ideal) ((c : Thread nD τ).loc b))

/-- Zero offsets, however spelt. -/
private theorem zero2 : (![0, 0] : Fin 2 → Nat) = fun _ => 0 := funext fun a => by fin_cases a <;> rfl
private theorem zero3 : (![0, 0, 0] : Fin 3 → Nat) = fun _ => 0 := funext fun a => by fin_cases a <;> rfl

/-- The printed index maps, decided over the grid: the row-blocked windows sit at block (t, 0 …), the whole ones at (0, 0). -/
private theorem index0_0 : ∀ t : Fin cfg0.N, win0_0.index t (0 : Fin 2) = t.val ∧ win0_0.index t (1 : Fin 2) = 0 :=
  (by decide +kernel : ∀ t : Fin grid0.N, _)
private theorem index0_1 : ∀ t : Fin cfg0.N, win0_1.index t (0 : Fin 3) = t.val ∧ win0_1.index t (1 : Fin 3) = 0 ∧ win0_1.index t (2 : Fin 3) = 0 :=
  (by decide +kernel : ∀ t : Fin grid0.N, _)
private theorem index0_2 : ∀ t : Fin cfg0.N, win0_2.index t (0 : Fin 2) = 0 ∧ win0_2.index t (1 : Fin 2) = 0 :=
  (by decide +kernel : ∀ t : Fin grid0.N, _)
private theorem index0_3 : ∀ t : Fin cfg0.N, win0_3.index t (0 : Fin 2) = 0 ∧ win0_3.index t (1 : Fin 2) = 0 :=
  (by decide +kernel : ∀ t : Fin grid0.N, _)
private theorem index0_4 : ∀ t : Fin cfg0.N, win0_4.index t (0 : Fin 2) = 0 ∧ win0_4.index t (1 : Fin 2) = 0 :=
  (by decide +kernel : ∀ t : Fin grid0.N, _)
private theorem index0_5 : ∀ t : Fin cfg0.N, win0_5.index t (0 : Fin 2) = t.val ∧ win0_5.index t (1 : Fin 2) = 0 :=
  (by decide +kernel : ∀ t : Fin grid0.N, _)

/-- Row `p` of point `t`'s block is a row of the array. -/
private theorem row0_lt (t : Fin cfg0.N) (p : Fin 512) : t.val * 512 + p.val < 124416 := by
  have ht : t.val < 243 := t.isLt
  have hp := p.isLt
  omega

/-- The own-feature block at point `t`: rows `512 t …` of the array. -/
private theorem iblk0_0_apply (c : Dev nD) (t : Fin cfg0.N) (p : Fin 512) (k : Fin 128) :
    iblk0 V c 0 t (ix2 p k) = V c main_v8 (ix2 ⟨t.val * 512 + p.val, row0_lt t p⟩ k) := by
  obtain ⟨e0, e1⟩ := index0_0 t
  show V c main_v8 (((cfg0.win 0).blk t).view.emb (ix2 p k)) = _
  congr 1; funext a; apply Fin.ext
  match a with
  | ⟨0, _⟩ => show win0_0.index t (0 : Fin 2) * 512 + 1 * p.val = t.val * 512 + p.val; omega
  | ⟨1, _⟩ => show win0_0.index t (1 : Fin 2) * 128 + 1 * k.val = k.val; omega

/-- The neighbour block at point `t`: rows `512 t …` of the array, all eight neighbours. -/
private theorem iblk0_1_apply (c : Dev nD) (t : Fin cfg0.N) (p : Fin 512) (j : Fin 8) (k : Fin 128) :
    iblk0 V c 1 t (ix3 p j k) = V c main_v7 (ix3 ⟨t.val * 512 + p.val, row0_lt t p⟩ j k) := by
  obtain ⟨e0, e1, e2⟩ := index0_1 t
  show V c main_v7 (((cfg0.win 1).blk t).view.emb (ix3 p j k)) = _
  congr 1; funext a; apply Fin.ext
  match a with
  | ⟨0, _⟩ => show win0_1.index t (0 : Fin 3) * 512 + 1 * p.val = t.val * 512 + p.val; omega
  | ⟨1, _⟩ => show win0_1.index t (1 : Fin 3) * 8 + 1 * j.val = j.val; omega
  | ⟨2, _⟩ => show win0_1.index t (2 : Fin 3) * 128 + 1 * k.val = k.val; omega

/-- The weight and bias blocks are the whole arrays at every point. -/
private theorem iblk0_2_apply (c : Dev nD) (t : Fin cfg0.N) (k q : Fin 128) :
    iblk0 V c 2 t (ix2 k q) = V c main_arg4 (ix2 k q) := by
  obtain ⟨e0, e1⟩ := index0_2 t
  show V c main_arg4 (((cfg0.win 2).blk t).view.emb (ix2 k q)) = _
  congr 1; funext a; apply Fin.ext
  match a with
  | ⟨0, _⟩ => show win0_2.index t (0 : Fin 2) * 128 + 1 * k.val = k.val; omega
  | ⟨1, _⟩ => show win0_2.index t (1 : Fin 2) * 128 + 1 * q.val = q.val; omega
private theorem iblk0_3_apply (c : Dev nD) (t : Fin cfg0.N) (k q : Fin 128) :
    iblk0 V c 3 t (ix2 k q) = V c main_arg5 (ix2 k q) := by
  obtain ⟨e0, e1⟩ := index0_3 t
  show V c main_arg5 (((cfg0.win 3).blk t).view.emb (ix2 k q)) = _
  congr 1; funext a; apply Fin.ext
  match a with
  | ⟨0, _⟩ => show win0_3.index t (0 : Fin 2) * 128 + 1 * k.val = k.val; omega
  | ⟨1, _⟩ => show win0_3.index t (1 : Fin 2) * 128 + 1 * q.val = q.val; omega
private theorem iblk0_4_apply (c : Dev nD) (t : Fin cfg0.N) (z : Fin 1) (q : Fin 128) :
    iblk0 V c 4 t (ix2 z q) = V c main_v9 (ix2 z q) := by
  obtain ⟨e0, e1⟩ := index0_4 t
  show V c main_v9 (((cfg0.win 4).blk t).view.emb (ix2 z q)) = _
  congr 1; funext a; apply Fin.ext
  match a with
  | ⟨0, _⟩ => show win0_4.index t (0 : Fin 2) * 1 + 1 * z.val = z.val; omega
  | ⟨1, _⟩ => show win0_4.index t (1 : Fin 2) * 128 + 1 * q.val = q.val; omega

/-- Where entry `(p, q)` of point `t`'s output block sits in the array. -/
private theorem emb0_5 (t : Fin cfg0.N) (p : Fin 512) (q : Fin 128) :
    ((cfg0.win 5).blk t).view.emb (ix2 p q) = ix2 ⟨t.val * 512 + p.val, row0_lt t p⟩ q := by
  obtain ⟨e0, e1⟩ := index0_5 t
  funext a; apply Fin.ext
  match a with
  | ⟨0, _⟩ => show win0_5.index t (0 : Fin 2) * 512 + 1 * p.val = t.val * 512 + p.val; omega
  | ⟨1, _⟩ => show win0_5.index t (1 : Fin 2) * 128 + 1 * q.val = q.val; omega

/-- The whole output array: every row is the layer's formula of that row of the inputs. -/
private def arr0 (c : Dev nD) : S124416x128.Idx → Elt Ideal .f32 := fun i =>
  layerRelu (fun k => V c main_v8 (ix2 (n0 := 124416) ⟨(i 0).val, (i 0).isLt⟩ k))
    (fun j k => V c main_v7 (ix3 (n0 := 124416) ⟨(i 0).val, (i 0).isLt⟩ j k))
    (fun k q => V c main_arg4 (ix2 k q)) (fun k q => V c main_arg5 (ix2 k q)) (fun q => V c main_v9 (ix2 0 q))
    ⟨(i 1).val, (i 1).isLt⟩

private theorem arr0_ix2 (c : Dev nD) (P : Fin 124416) (q : Fin 128) :
    arr0 V c (ix2 P q) = layerRelu (fun k => V c main_v8 (ix2 P k)) (fun j k => V c main_v7 (ix3 P j k)) (fun k q => V c main_arg4 (ix2 k q))
          (fun k q => V c main_arg5 (ix2 k q)) (fun q => V c main_v9 (ix2 0 q)) q := rfl

private theorem flushed0_eq (c : Dev nD) (t : Fin cfg0.N) :
    (dat0 (F := Ideal) V c).flushed 5 t = ((cfg0.win 5).blk t).view.read (Elt Ideal) (arr0 V c) := by
  show (cfg0.win 5).cut (grid0.coords t) ((dat0 (F := Ideal) V c).after 5 t) = _
  rw [after0_5]
  unfold out0_5
  rw [View.canon_unit_zero zero2]
  simp only [View.ld_unit_zero (S := S512x128) zero2, View.ld_unit_zero (S := S512x8x128) zero3, View.ld_unit_zero (S := S128x128) zero2, View.ld_unit_zero (S := S1x128) zero2]
  funext j
  obtain ⟨p, q, rfl⟩ : ∃ (p : Fin 512) (q : Fin 128), j = ix2 p q := ⟨j 0, j 1, eq_ix2 j⟩
  show k0_pay1 (F := Ideal) (iblk0 V c 1 t) (iblk0 V c 0 t) (iblk0 V c 2 t) (iblk0 V c 3 t) (iblk0 V c 4 t) (ix2 p q)
    = arr0 V c (((cfg0.win 5).blk t).view.emb (ix2 p q))
  rw [emb0_5, arr0_ix2]
  refine (k0_pay1_apply (iblk0 V c 1 t) (iblk0 V c 0 t) (iblk0 V c 2 t) (iblk0 V c 3 t) (iblk0 V c 4 t) p q).trans ?_
  simp only [iblk0_0_apply, iblk0_1_apply, iblk0_2_apply, iblk0_3_apply, iblk0_4_apply]

/-- An index of the array is in point `t`'s block iff each coordinate is in the block's range on its axis. -/
private theorem mem_blk0 (t : Fin cfg0.N) (i : S124416x128.Idx) :
    i ∈ ((cfg0.win 5).blk t).view.set ↔ ∀ a : Fin 2, win0_5.index t a * S512x128.size a ≤ (i a).val ∧ (i a).val < win0_5.index t a * S512x128.size a + S512x128.size a := by
  show i ∈ ((View.whole main_v10).slice (win0_5.rect t)).set ↔ _
  rw [View.set_slice_whole, Rect.mem_set_unit]
  exact Iff.rfl

/-- The blocks tile the array: row `r` lies in the block of point `r / 512`. -/
private theorem cover0 (i : S124416x128.Idx) : ∃ t : Fin cfg0.N, (cfg0.win 5).flush t = true ∧ i ∈ ((cfg0.win 5).blk t).view.set := by
  have hi0 : (i 0).val < 124416 := (i 0).isLt
  have hi1 : (i 1).val < 128 := (i 1).isLt
  have ht : (i 0).val / 512 < 243 := by omega
  obtain ⟨e0, e1⟩ := index0_5 ⟨(i 0).val / 512, ht⟩
  refine ⟨⟨(i 0).val / 512, ht⟩, flush0_5 _, ?_⟩
  rw [mem_blk0]
  intro a
  match a with
  | ⟨0, _⟩ =>
    show win0_5.index ⟨(i 0).val / 512, ht⟩ (0 : Fin 2) * 512 ≤ (i 0).val ∧ (i 0).val < win0_5.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_5.index ⟨(i 0).val / 512, ht⟩ (1 : Fin 2) * 128 ≤ (i 1).val ∧ (i 1).val < win0_5.index ⟨(i 0).val / 512, ht⟩ (1 : Fin 2) * 128 + 128
    rw [e1]; omega

/-- The array after the region. -/
private theorem arr0_eq (c : Dev nD) : (dat0 (F := Ideal) V c).arrAt 5 cfg0.N = arr0 V c :=
  (dat0 (F := Ideal) V c).arrAt_eq_of_cover 5 (arr0 V c) (fun t _ => flushed0_eq V c t) cover0

/-- Entry `(P, q)` of the first layer's output array, from the arrays the region finds. -/
theorem arr0_apply (c : Dev nD) (P : Fin 124416) (q : Fin 128) :
    (dat0 (F := Ideal) V c).arrAt 5 cfg0.N (ix2 P q)
      = layerRelu (fun k => V c main_v8 (ix2 P k)) (fun j k => V c main_v7 (ix3 P j k)) (fun k q => V c main_arg4 (ix2 k q))
          (fun k q => V c main_arg5 (ix2 k q)) (fun q => V c main_v9 (ix2 0 q)) q := by
  rw [arr0_eq]; exact arr0_ix2 V c P q

end Cert.Sage

end
-- ==== Proof.RegionArr1.lean ====
/- The second layer's output array after its region has run, read at an entry: the same tiling of the array by 512-row
  blocks as in the first layer's module, at this layer's number of rows and grid points. -/
import proofs.«135038_j60799557042640_1_alg».proof.Proof.Gen.KernelIdeal.Frame
import proofs.«135038_j60799557042640_1_alg».proof.Proof.SagePay
import Idealize.ShloMosaic.Lib.Pipeline.Value

set_option maxRecDepth 16384

noncomputable section

open scoped BigOperators

namespace Cert.Sage

open Idealize.ShloMosaic Idealize.ShloMosaic.TcCoe Idealize.ShloMosaic.ValueIdx Idealize.SL.Sem Cert.KernelIdeal Cert.KernelIdeal.Gen
open Idealize.ShloMosaic.Pipeline (Dat Cfg Window)

-- the core's buffer contents when the region is entered
variable (V : (c : Dev nD) → (b : Ref sig .tc) → Buf (Elt Ideal) ((c : Thread nD τ).loc b))

/-- Zero offsets, however spelt. -/
private theorem zero2 : (![0, 0] : Fin 2 → Nat) = fun _ => 0 := funext fun a => by fin_cases a <;> rfl
private theorem zero3 : (![0, 0, 0] : Fin 3 → Nat) = fun _ => 0 := funext fun a => by fin_cases a <;> rfl

/-- The printed index maps, decided over the grid: the row-blocked windows sit at block (t, 0 …), the whole ones at (0, 0). -/
private theorem index1_0 : ∀ t : Fin cfg1.N, win1_0.index t (0 : Fin 2) = t.val ∧ win1_0.index t (1 : Fin 2) = 0 :=
  (by decide +kernel : ∀ t : Fin grid1.N, _)
private theorem index1_1 : ∀ t : Fin cfg1.N, win1_1.index t (0 : Fin 3) = t.val ∧ win1_1.index t (1 : Fin 3) = 0 ∧ win1_1.index t (2 : Fin 3) = 0 :=
  (by decide +kernel : ∀ t : Fin grid1.N, _)
private theorem index1_2 : ∀ t : Fin cfg1.N, win1_2.index t (0 : Fin 2) = 0 ∧ win1_2.index t (1 : Fin 2) = 0 :=
  (by decide +kernel : ∀ t : Fin grid1.N, _)
private theorem index1_3 : ∀ t : Fin cfg1.N, win1_3.index t (0 : Fin 2) = 0 ∧ win1_3.index t (1 : Fin 2) = 0 :=
  (by decide +kernel : ∀ t : Fin grid1.N, _)
private theorem index1_4 : ∀ t : Fin cfg1.N, win1_4.index t (0 : Fin 2) = 0 ∧ win1_4.index t (1 : Fin 2) = 0 :=
  (by decide +kernel : ∀ t : Fin grid1.N, _)
private theorem index1_5 : ∀ t : Fin cfg1.N, win1_5.index t (0 : Fin 2) = t.val ∧ win1_5.index t (1 : Fin 2) = 0 :=
  (by decide +kernel : ∀ t : Fin grid1.N, _)

/-- Row `p` of point `t`'s block is a row of the array. -/
private theorem row1_lt (t : Fin cfg1.N) (p : Fin 512) : t.val * 512 + p.val < 13824 := by
  have ht : t.val < 27 := t.isLt
  have hp := p.isLt
  omega

/-- The own-feature block at point `t`: rows `512 t …` of the array. -/
private theorem iblk1_0_apply (c : Dev nD) (t : Fin cfg1.N) (p : Fin 512) (k : Fin 128) :
    iblk1 V c 0 t (ix2 p k) = V c main_v19 (ix2 ⟨t.val * 512 + p.val, row1_lt t p⟩ k) := by
  obtain ⟨e0, e1⟩ := index1_0 t
  show V c main_v19 (((cfg1.win 0).blk t).view.emb (ix2 p k)) = _
  congr 1; funext a; apply Fin.ext
  match a with
  | ⟨0, _⟩ => show win1_0.index t (0 : Fin 2) * 512 + 1 * p.val = t.val * 512 + p.val; omega
  | ⟨1, _⟩ => show win1_0.index t (1 : Fin 2) * 128 + 1 * k.val = k.val; omega

/-- The neighbour block at point `t`: rows `512 t …` of the array, all eight neighbours. -/
private theorem iblk1_1_apply (c : Dev nD) (t : Fin cfg1.N) (p : Fin 512) (j : Fin 8) (k : Fin 128) :
    iblk1 V c 1 t (ix3 p j k) = V c main_v18 (ix3 ⟨t.val * 512 + p.val, row1_lt t p⟩ j k) := by
  obtain ⟨e0, e1, e2⟩ := index1_1 t
  show V c main_v18 (((cfg1.win 1).blk t).view.emb (ix3 p j k)) = _
  congr 1; funext a; apply Fin.ext
  match a with
  | ⟨0, _⟩ => show win1_1.index t (0 : Fin 3) * 512 + 1 * p.val = t.val * 512 + p.val; omega
  | ⟨1, _⟩ => show win1_1.index t (1 : Fin 3) * 8 + 1 * j.val = j.val; omega
  | ⟨2, _⟩ => show win1_1.index t (2 : Fin 3) * 128 + 1 * k.val = k.val; omega

/-- The weight and bias blocks are the whole arrays at every point. -/
private theorem iblk1_2_apply (c : Dev nD) (t : Fin cfg1.N) (k q : Fin 128) :
    iblk1 V c 2 t (ix2 k q) = V c main_arg7 (ix2 k q) := by
  obtain ⟨e0, e1⟩ := index1_2 t
  show V c main_arg7 (((cfg1.win 2).blk t).view.emb (ix2 k q)) = _
  congr 1; funext a; apply Fin.ext
  match a with
  | ⟨0, _⟩ => show win1_2.index t (0 : Fin 2) * 128 + 1 * k.val = k.val; omega
  | ⟨1, _⟩ => show win1_2.index t (1 : Fin 2) * 128 + 1 * q.val = q.val; omega
private theorem iblk1_3_apply (c : Dev nD) (t : Fin cfg1.N) (k q : Fin 128) :
    iblk1 V c 3 t (ix2 k q) = V c main_arg8 (ix2 k q) := by
  obtain ⟨e0, e1⟩ := index1_3 t
  show V c main_arg8 (((cfg1.win 3).blk t).view.emb (ix2 k q)) = _
  congr 1; funext a; apply Fin.ext
  match a with
  | ⟨0, _⟩ => show win1_3.index t (0 : Fin 2) * 128 + 1 * k.val = k.val; omega
  | ⟨1, _⟩ => show win1_3.index t (1 : Fin 2) * 128 + 1 * q.val = q.val; omega
private theorem iblk1_4_apply (c : Dev nD) (t : Fin cfg1.N) (z : Fin 1) (q : Fin 128) :
    iblk1 V c 4 t (ix2 z q) = V c main_v20 (ix2 z q) := by
  obtain ⟨e0, e1⟩ := index1_4 t
  show V c main_v20 (((cfg1.win 4).blk t).view.emb (ix2 z q)) = _
  congr 1; funext a; apply Fin.ext
  match a with
  | ⟨0, _⟩ => show win1_4.index t (0 : Fin 2) * 1 + 1 * z.val = z.val; omega
  | ⟨1, _⟩ => show win1_4.index t (1 : Fin 2) * 128 + 1 * q.val = q.val; omega

/-- Where entry `(p, q)` of point `t`'s output block sits in the array. -/
private theorem emb1_5 (t : Fin cfg1.N) (p : Fin 512) (q : Fin 128) :
    ((cfg1.win 5).blk t).view.emb (ix2 p q) = ix2 ⟨t.val * 512 + p.val, row1_lt t p⟩ q := by
  obtain ⟨e0, e1⟩ := index1_5 t
  funext a; apply Fin.ext
  match a with
  | ⟨0, _⟩ => show win1_5.index t (0 : Fin 2) * 512 + 1 * p.val = t.val * 512 + p.val; omega
  | ⟨1, _⟩ => show win1_5.index t (1 : Fin 2) * 128 + 1 * q.val = q.val; omega

/-- The whole output array: every row is the layer's formula of that row of the inputs. -/
private def arr1 (c : Dev nD) : S13824x128.Idx → Elt Ideal .f32 := fun i =>
  layerRelu (fun k => V c main_v19 (ix2 (n0 := 13824) ⟨(i 0).val, (i 0).isLt⟩ k))
    (fun j k => V c main_v18 (ix3 (n0 := 13824) ⟨(i 0).val, (i 0).isLt⟩ j k))
    (fun k q => V c main_arg7 (ix2 k q)) (fun k q => V c main_arg8 (ix2 k q)) (fun q => V c main_v20 (ix2 0 q))
    ⟨(i 1).val, (i 1).isLt⟩

private theorem arr1_ix2 (c : Dev nD) (P : Fin 13824) (q : Fin 128) :
    arr1 V c (ix2 P q) = layerRelu (fun k => V c main_v19 (ix2 P k)) (fun j k => V c main_v18 (ix3 P j k)) (fun k q => V c main_arg7 (ix2 k q))
          (fun k q => V c main_arg8 (ix2 k q)) (fun q => V c main_v20 (ix2 0 q)) q := rfl

private theorem flushed1_eq (c : Dev nD) (t : Fin cfg1.N) :
    (dat1 (F := Ideal) V c).flushed 5 t = ((cfg1.win 5).blk t).view.read (Elt Ideal) (arr1 V c) := by
  show (cfg1.win 5).cut (grid1.coords t) ((dat1 (F := Ideal) V c).after 5 t) = _
  rw [after1_5]
  unfold out1_5
  rw [View.canon_unit_zero zero2]
  simp only [View.ld_unit_zero (S := S512x128) zero2, View.ld_unit_zero (S := S512x8x128) zero3, View.ld_unit_zero (S := S128x128) zero2, View.ld_unit_zero (S := S1x128) zero2]
  funext j
  obtain ⟨p, q, rfl⟩ : ∃ (p : Fin 512) (q : Fin 128), j = ix2 p q := ⟨j 0, j 1, eq_ix2 j⟩
  show k1_pay1 (F := Ideal) (iblk1 V c 1 t) (iblk1 V c 0 t) (iblk1 V c 2 t) (iblk1 V c 3 t) (iblk1 V c 4 t) (ix2 p q)
    = arr1 V c (((cfg1.win 5).blk t).view.emb (ix2 p q))
  rw [emb1_5, arr1_ix2]
  refine (k1_pay1_apply (iblk1 V c 1 t) (iblk1 V c 0 t) (iblk1 V c 2 t) (iblk1 V c 3 t) (iblk1 V c 4 t) p q).trans ?_
  simp only [iblk1_0_apply, iblk1_1_apply, iblk1_2_apply, iblk1_3_apply, iblk1_4_apply]

/-- An index of the array is in point `t`'s block iff each coordinate is in the block's range on its axis. -/
private theorem mem_blk1 (t : Fin cfg1.N) (i : S13824x128.Idx) :
    i ∈ ((cfg1.win 5).blk t).view.set ↔ ∀ a : Fin 2, win1_5.index t a * S512x128.size a ≤ (i a).val ∧ (i a).val < win1_5.index t a * S512x128.size a + S512x128.size a := by
  show i ∈ ((View.whole main_v21).slice (win1_5.rect t)).set ↔ _
  rw [View.set_slice_whole, Rect.mem_set_unit]
  exact Iff.rfl

/-- The blocks tile the array: row `r` lies in the block of point `r / 512`. -/
private theorem cover1 (i : S13824x128.Idx) : ∃ t : Fin cfg1.N, (cfg1.win 5).flush t = true ∧ i ∈ ((cfg1.win 5).blk t).view.set := by
  have hi0 : (i 0).val < 13824 := (i 0).isLt
  have hi1 : (i 1).val < 128 := (i 1).isLt
  have ht : (i 0).val / 512 < 27 := by omega
  obtain ⟨e0, e1⟩ := index1_5 ⟨(i 0).val / 512, ht⟩
  refine ⟨⟨(i 0).val / 512, ht⟩, flush1_5 _, ?_⟩
  rw [mem_blk1]
  intro a
  match a with
  | ⟨0, _⟩ =>
    show win1_5.index ⟨(i 0).val / 512, ht⟩ (0 : Fin 2) * 512 ≤ (i 0).val ∧ (i 0).val < win1_5.index ⟨(i 0).val / 512, ht⟩ (0 : Fin 2) * 512 + 512
    rw [e0]; show (i 0).val / 512 * 512 ≤ (i 0).val ∧ (i 0).val < (i 0).val / 512 * 512 + 512; omega
  | ⟨1, _⟩ =>
    show win1_5.index ⟨(i 0).val / 512, ht⟩ (1 : Fin 2) * 128 ≤ (i 1).val ∧ (i 1).val < win1_5.index ⟨(i 0).val / 512, ht⟩ (1 : Fin 2) * 128 + 128
    rw [e1]; omega

/-- The array after the region. -/
private theorem arr1_eq (c : Dev nD) : (dat1 (F := Ideal) V c).arrAt 5 cfg1.N = arr1 V c :=
  (dat1 (F := Ideal) V c).arrAt_eq_of_cover 5 (arr1 V c) (fun t _ => flushed1_eq V c t) cover1

/-- Entry `(P, q)` of the second layer's output array, from the arrays the region finds. -/
theorem arr1_apply (c : Dev nD) (P : Fin 13824) (q : Fin 128) :
    (dat1 (F := Ideal) V c).arrAt 5 cfg1.N (ix2 P q)
      = layerRelu (fun k => V c main_v19 (ix2 P k)) (fun j k => V c main_v18 (ix3 P j k)) (fun k q => V c main_arg7 (ix2 k q))
          (fun k q => V c main_arg8 (ix2 k q)) (fun q => V c main_v20 (ix2 0 q)) q := by
  rw [arr1_eq]; exact arr1_ix2 V c P q

end Cert.Sage

end
-- ==== Proof.RegionArr2.lean ====
/- The third layer's output array after its region has run, read at an entry: the same tiling of the array by 512-row
  blocks as in the first layer's module, at this layer's number of rows and grid points. -/
import proofs.«135038_j60799557042640_1_alg».proof.Proof.Gen.KernelIdeal.Frame
import proofs.«135038_j60799557042640_1_alg».proof.Proof.SagePay
import Idealize.ShloMosaic.Lib.Pipeline.Value

set_option maxRecDepth 16384

noncomputable section

open scoped BigOperators

namespace Cert.Sage

open Idealize.ShloMosaic Idealize.ShloMosaic.TcCoe Idealize.ShloMosaic.ValueIdx Idealize.SL.Sem Cert.KernelIdeal Cert.KernelIdeal.Gen
open Idealize.ShloMosaic.Pipeline (Dat Cfg Window)

-- the core's buffer contents when the region is entered
variable (V : (c : Dev nD) → (b : Ref sig .tc) → Buf (Elt Ideal) ((c : Thread nD τ).loc b))

/-- Zero offsets, however spelt. -/
private theorem zero2 : (![0, 0] : Fin 2 → Nat) = fun _ => 0 := funext fun a => by fin_cases a <;> rfl
private theorem zero3 : (![0, 0, 0] : Fin 3 → Nat) = fun _ => 0 := funext fun a => by fin_cases a <;> rfl

/-- The printed index maps, decided over the grid: the row-blocked windows sit at block (t, 0 …), the whole ones at (0, 0). -/
private theorem index2_0 : ∀ t : Fin cfg2.N, win2_0.index t (0 : Fin 2) = t.val ∧ win2_0.index t (1 : Fin 2) = 0 :=
  (by decide +kernel : ∀ t : Fin grid2.N, _)
private theorem index2_1 : ∀ t : Fin cfg2.N, win2_1.index t (0 : Fin 3) = t.val ∧ win2_1.index t (1 : Fin 3) = 0 ∧ win2_1.index t (2 : Fin 3) = 0 :=
  (by decide +kernel : ∀ t : Fin grid2.N, _)
private theorem index2_2 : ∀ t : Fin cfg2.N, win2_2.index t (0 : Fin 2) = 0 ∧ win2_2.index t (1 : Fin 2) = 0 :=
  (by decide +kernel : ∀ t : Fin grid2.N, _)
private theorem index2_3 : ∀ t : Fin cfg2.N, win2_3.index t (0 : Fin 2) = 0 ∧ win2_3.index t (1 : Fin 2) = 0 :=
  (by decide +kernel : ∀ t : Fin grid2.N, _)
private theorem index2_4 : ∀ t : Fin cfg2.N, win2_4.index t (0 : Fin 2) = 0 ∧ win2_4.index t (1 : Fin 2) = 0 :=
  (by decide +kernel : ∀ t : Fin grid2.N, _)
private theorem index2_5 : ∀ t : Fin cfg2.N, win2_5.index t (0 : Fin 2) = t.val ∧ win2_5.index t (1 : Fin 2) = 0 :=
  (by decide +kernel : ∀ t : Fin grid2.N, _)

/-- Row `p` of point `t`'s block is a row of the array. -/
private theorem row2_lt (t : Fin cfg2.N) (p : Fin 512) : t.val * 512 + p.val < 1536 := by
  have ht : t.val < 3 := t.isLt
  have hp := p.isLt
  omega

/-- The own-feature block at point `t`: rows `512 t …` of the array. -/
private theorem iblk2_0_apply (c : Dev nD) (t : Fin cfg2.N) (p : Fin 512) (k : Fin 128) :
    iblk2 V c 0 t (ix2 p k) = V c main_v30 (ix2 ⟨t.val * 512 + p.val, row2_lt t p⟩ k) := by
  obtain ⟨e0, e1⟩ := index2_0 t
  show V c main_v30 (((cfg2.win 0).blk t).view.emb (ix2 p k)) = _
  congr 1; funext a; apply Fin.ext
  match a with
  | ⟨0, _⟩ => show win2_0.index t (0 : Fin 2) * 512 + 1 * p.val = t.val * 512 + p.val; omega
  | ⟨1, _⟩ => show win2_0.index t (1 : Fin 2) * 128 + 1 * k.val = k.val; omega

/-- The neighbour block at point `t`: rows `512 t …` of the array, all eight neighbours. -/
private theorem iblk2_1_apply (c : Dev nD) (t : Fin cfg2.N) (p : Fin 512) (j : Fin 8) (k : Fin 128) :
    iblk2 V c 1 t (ix3 p j k) = V c main_v29 (ix3 ⟨t.val * 512 + p.val, row2_lt t p⟩ j k) := by
  obtain ⟨e0, e1, e2⟩ := index2_1 t
  show V c main_v29 (((cfg2.win 1).blk t).view.emb (ix3 p j k)) = _
  congr 1; funext a; apply Fin.ext
  match a with
  | ⟨0, _⟩ => show win2_1.index t (0 : Fin 3) * 512 + 1 * p.val = t.val * 512 + p.val; omega
  | ⟨1, _⟩ => show win2_1.index t (1 : Fin 3) * 8 + 1 * j.val = j.val; omega
  | ⟨2, _⟩ => show win2_1.index t (2 : Fin 3) * 128 + 1 * k.val = k.val; omega

/-- The weight and bias blocks are the whole arrays at every point. -/
private theorem iblk2_2_apply (c : Dev nD) (t : Fin cfg2.N) (k q : Fin 128) :
    iblk2 V c 2 t (ix2 k q) = V c main_arg10 (ix2 k q) := by
  obtain ⟨e0, e1⟩ := index2_2 t
  show V c main_arg10 (((cfg2.win 2).blk t).view.emb (ix2 k q)) = _
  congr 1; funext a; apply Fin.ext
  match a with
  | ⟨0, _⟩ => show win2_2.index t (0 : Fin 2) * 128 + 1 * k.val = k.val; omega
  | ⟨1, _⟩ => show win2_2.index t (1 : Fin 2) * 128 + 1 * q.val = q.val; omega
private theorem iblk2_3_apply (c : Dev nD) (t : Fin cfg2.N) (k q : Fin 128) :
    iblk2 V c 3 t (ix2 k q) = V c main_arg11 (ix2 k q) := by
  obtain ⟨e0, e1⟩ := index2_3 t
  show V c main_arg11 (((cfg2.win 3).blk t).view.emb (ix2 k q)) = _
  congr 1; funext a; apply Fin.ext
  match a with
  | ⟨0, _⟩ => show win2_3.index t (0 : Fin 2) * 128 + 1 * k.val = k.val; omega
  | ⟨1, _⟩ => show win2_3.index t (1 : Fin 2) * 128 + 1 * q.val = q.val; omega
private theorem iblk2_4_apply (c : Dev nD) (t : Fin cfg2.N) (z : Fin 1) (q : Fin 128) :
    iblk2 V c 4 t (ix2 z q) = V c main_v31 (ix2 z q) := by
  obtain ⟨e0, e1⟩ := index2_4 t
  show V c main_v31 (((cfg2.win 4).blk t).view.emb (ix2 z q)) = _
  congr 1; funext a; apply Fin.ext
  match a with
  | ⟨0, _⟩ => show win2_4.index t (0 : Fin 2) * 1 + 1 * z.val = z.val; omega
  | ⟨1, _⟩ => show win2_4.index t (1 : Fin 2) * 128 + 1 * q.val = q.val; omega

/-- Where entry `(p, q)` of point `t`'s output block sits in the array. -/
private theorem emb2_5 (t : Fin cfg2.N) (p : Fin 512) (q : Fin 128) :
    ((cfg2.win 5).blk t).view.emb (ix2 p q) = ix2 ⟨t.val * 512 + p.val, row2_lt t p⟩ q := by
  obtain ⟨e0, e1⟩ := index2_5 t
  funext a; apply Fin.ext
  match a with
  | ⟨0, _⟩ => show win2_5.index t (0 : Fin 2) * 512 + 1 * p.val = t.val * 512 + p.val; omega
  | ⟨1, _⟩ => show win2_5.index t (1 : Fin 2) * 128 + 1 * q.val = q.val; omega

/-- The whole output array: every row is the layer's formula of that row of the inputs. -/
private def arr2 (c : Dev nD) : S1536x128.Idx → Elt Ideal .f32 := fun i =>
  layerPre (fun k => V c main_v30 (ix2 (n0 := 1536) ⟨(i 0).val, (i 0).isLt⟩ k))
    (fun j k => V c main_v29 (ix3 (n0 := 1536) ⟨(i 0).val, (i 0).isLt⟩ j k))
    (fun k q => V c main_arg10 (ix2 k q)) (fun k q => V c main_arg11 (ix2 k q)) (fun q => V c main_v31 (ix2 0 q))
    ⟨(i 1).val, (i 1).isLt⟩

private theorem arr2_ix2 (c : Dev nD) (P : Fin 1536) (q : Fin 128) :
    arr2 V c (ix2 P q) = layerPre (fun k => V c main_v30 (ix2 P k)) (fun j k => V c main_v29 (ix3 P j k)) (fun k q => V c main_arg10 (ix2 k q))
          (fun k q => V c main_arg11 (ix2 k q)) (fun q => V c main_v31 (ix2 0 q)) q := rfl

private theorem flushed2_eq (c : Dev nD) (t : Fin cfg2.N) :
    (dat2 (F := Ideal) V c).flushed 5 t = ((cfg2.win 5).blk t).view.read (Elt Ideal) (arr2 V c) := by
  show (cfg2.win 5).cut (grid2.coords t) ((dat2 (F := Ideal) V c).after 5 t) = _
  rw [after2_5]
  unfold out2_5
  rw [View.canon_unit_zero zero2]
  simp only [View.ld_unit_zero (S := S512x128) zero2, View.ld_unit_zero (S := S512x8x128) zero3, View.ld_unit_zero (S := S128x128) zero2, View.ld_unit_zero (S := S1x128) zero2]
  funext j
  obtain ⟨p, q, rfl⟩ : ∃ (p : Fin 512) (q : Fin 128), j = ix2 p q := ⟨j 0, j 1, eq_ix2 j⟩
  show k2_pay1 (F := Ideal) (iblk2 V c 1 t) (iblk2 V c 0 t) (iblk2 V c 2 t) (iblk2 V c 3 t) (iblk2 V c 4 t) (ix2 p q)
    = arr2 V c (((cfg2.win 5).blk t).view.emb (ix2 p q))
  rw [emb2_5, arr2_ix2]
  refine (k2_pay1_apply (iblk2 V c 1 t) (iblk2 V c 0 t) (iblk2 V c 2 t) (iblk2 V c 3 t) (iblk2 V c 4 t) p q).trans ?_
  simp only [iblk2_0_apply, iblk2_1_apply, iblk2_2_apply, iblk2_3_apply, iblk2_4_apply]

/-- An index of the array is in point `t`'s block iff each coordinate is in the block's range on its axis. -/
private theorem mem_blk2 (t : Fin cfg2.N) (i : S1536x128.Idx) :
    i ∈ ((cfg2.win 5).blk t).view.set ↔ ∀ a : Fin 2, win2_5.index t a * S512x128.size a ≤ (i a).val ∧ (i a).val < win2_5.index t a * S512x128.size a + S512x128.size a := by
  show i ∈ ((View.whole main_v32).slice (win2_5.rect t)).set ↔ _
  rw [View.set_slice_whole, Rect.mem_set_unit]
  exact Iff.rfl

/-- The blocks tile the array: row `r` lies in the block of point `r / 512`. -/
private theorem cover2 (i : S1536x128.Idx) : ∃ t : Fin cfg2.N, (cfg2.win 5).flush t = true ∧ i ∈ ((cfg2.win 5).blk t).view.set := by
  have hi0 : (i 0).val < 1536 := (i 0).isLt
  have hi1 : (i 1).val < 128 := (i 1).isLt
  have ht : (i 0).val / 512 < 3 := by omega
  obtain ⟨e0, e1⟩ := index2_5 ⟨(i 0).val / 512, ht⟩
  refine ⟨⟨(i 0).val / 512, ht⟩, flush2_5 _, ?_⟩
  rw [mem_blk2]
  intro a
  match a with
  | ⟨0, _⟩ =>
    show win2_5.index ⟨(i 0).val / 512, ht⟩ (0 : Fin 2) * 512 ≤ (i 0).val ∧ (i 0).val < win2_5.index ⟨(i 0).val / 512, ht⟩ (0 : Fin 2) * 512 + 512
    rw [e0]; show (i 0).val / 512 * 512 ≤ (i 0).val ∧ (i 0).val < (i 0).val / 512 * 512 + 512; omega
  | ⟨1, _⟩ =>
    show win2_5.index ⟨(i 0).val / 512, ht⟩ (1 : Fin 2) * 128 ≤ (i 1).val ∧ (i 1).val < win2_5.index ⟨(i 0).val / 512, ht⟩ (1 : Fin 2) * 128 + 128
    rw [e1]; omega

/-- The array after the region. -/
private theorem arr2_eq (c : Dev nD) : (dat2 (F := Ideal) V c).arrAt 5 cfg2.N = arr2 V c :=
  (dat2 (F := Ideal) V c).arrAt_eq_of_cover 5 (arr2 V c) (fun t _ => flushed2_eq V c t) cover2

/-- Entry `(P, q)` of the third layer's output array, from the arrays the region finds. -/
theorem arr2_apply (c : Dev nD) (P : Fin 1536) (q : Fin 128) :
    (dat2 (F := Ideal) V c).arrAt 5 cfg2.N (ix2 P q)
      = layerPre (fun k => V c main_v30 (ix2 P k)) (fun j k => V c main_v29 (ix3 P j k)) (fun k q => V c main_arg10 (ix2 k q))
          (fun k q => V c main_arg11 (ix2 k q)) (fun q => V c main_v31 (ix2 0 q)) q := by
  rw [arr2_eq]; exact arr2_ix2 V c P q

end Cert.Sage

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.PredPay.lean ====
/-
  The predictor's block arithmetic read at an entry: what the kernel body stores at row `p` of its one-column
  output is the score of row `p` of its input block.
-/
import proofs.«135038_j60799557042640_1_alg».proof.Proof.Gen.KernelIdeal.Skeleton
import proofs.«135038_j60799557042640_1_alg».proof.Proof.Spec
import proofs.«135038_j60799557042640_1_alg».proof.Proof.LibRowDims
import Idealize.ShloMosaic.Lib.Pipeline.Value
import Idealize.ShloMosaic.Lib.ValueLayout

noncomputable section

open scoped BigOperators

namespace Cert.Sage

open Idealize.ShloMosaic Idealize.ShloMosaic.ValueIdx Cert.KernelIdeal Cert.KernelIdeal.Gen

/-- The square contraction record is the plain `[1024, 128] × [128, 128]` one. -/
private theorem dot_sq_eq : dot_S1024x128_S128x128_S1024x128_1_0_0_1_n_n = DotDims.plain 1024 128 128 := rfl

/-- The last contraction record is the plain `[1024, 128] × [128, 1]` one. -/
private theorem dot_col_eq : dot_S1024x128_S128x1_S1024x1_1_0_0_1_n_n = DotDims.plain 1024 128 1 := rfl

/-- One clipped affine layer read at the entry `(p, j)`: the row `p` of `X` against column `j` of `W`, plus
    entry `j` of the bias row, clipped below at zero. -/
private theorem layer_apply (X : FVec Ideal S1024x128 .f32) (W : FVec Ideal S128x128 .f32) (B : FVec Ideal S1x128 .f32)
    (p : Fin 1024) (j : Fin 128) :
    maximumf (addf (matmul dot_S1024x128_S128x128_S1024x128_1_0_0_1_n_n none (truncf .bf16 X bitsLt_bf16_f32)
          (truncf .bf16 W bitsLt_bf16_f32) (constant S1024x128 .f32 0x00000000#32))
        (broadcastTo S1024x128 B broadcasts_S1x128_S1024x128))
      (broadcast S1024x128 (Scalar.ofBits (F := Ideal) .f32 0x00000000#32)) (ix2 p j)
    = dense (fun k => X (ix2 p k)) (fun k j => W (ix2 k j)) (fun j => B (ix2 0 j)) j := by
  rw [maximumf_apply, addf_apply, broadcast_apply, dot_sq_eq]
  simp only [matmul]
  rw [RowDims.matmul_plain_zero_apply, broadcastTo_1b_ab_apply]
  rfl

/-- The predictor's stored column at row `p`. -/
theorem k3_pay1_apply (x : Vec Ideal S1024x128 .f32) (w1 : Vec Ideal S128x128 .f32) (b1 : Vec Ideal S1x128 .f32)
    (w2 : Vec Ideal S128x128 .f32) (b2 : Vec Ideal S1x128 .f32) (w3 : Vec Ideal S128x1 .f32) (b3 : Vec Ideal S1x1 .f32)
    (p : Fin 1024) :
    k3_pay1 (F := Ideal) x w1 b1 w2 b2 w3 b3 (ix2 p 0)
      = score (fun k => x (ix2 p k)) (fun k j => w1 (ix2 k j)) (fun j => b1 (ix2 0 j)) (fun k j => w2 (ix2 k j))
          (fun j => b2 (ix2 0 j)) (fun k => w3 (ix2 k 0)) (b3 (ix2 0 0)) := by
  unfold k3_pay1
  simp only [shapeCast_self]
  -- the last affine map: the second layer's row against the one column of w3, plus the one bias entry
  rw [addf_apply, dot_col_eq]
  simp only [matmul]
  rw [RowDims.matmul_plain_zero_apply, broadcastTo_1b_ab_apply]
  unfold score
  congr 1
  refine Finset.sum_congr rfl fun k _ => ?_
  -- entry k of the second clipped layer, whose input row is the first clipped layer's row p
  rw [truncf_apply, truncf_apply, layer_apply]
  congr 2
  funext k'
  -- entry k' of the first clipped layer
  rw [layer_apply]

end Cert.Sage

end
-- ==== Proof.RegionArr3.lean ====
/-
  The predictor's output column after its region has run, read at an entry: the grid has one point, whose blocks are
  the whole arrays; so entry `(p, 0)` is the score of row `p` of the input array.
-/
import proofs.«135038_j60799557042640_1_alg».proof.Proof.Gen.KernelIdeal.Frame
import proofs.«135038_j60799557042640_1_alg».proof.Proof.PredPay
import Idealize.ShloMosaic.Lib.Pipeline.Value

set_option maxRecDepth 16384

noncomputable section

open scoped BigOperators

namespace Cert.Sage

open Idealize.ShloMosaic Idealize.ShloMosaic.TcCoe Idealize.ShloMosaic.ValueIdx Idealize.SL.Sem Cert.KernelIdeal Cert.KernelIdeal.Gen
open Idealize.ShloMosaic.Pipeline (Dat Cfg Window)

-- the core's buffer contents when the region is entered
variable (V : (c : Dev nD) → (b : Ref sig .tc) → Buf (Elt Ideal) ((c : Thread nD τ).loc b))

/-- The zero offsets of a whole-buffer access, as the constant function. -/
private theorem zero_offsets : (![0, 0] : Fin 2 → Nat) = fun _ => 0 := funext fun a => by fin_cases a <;> rfl

/-- Window 0's one block is its whole array: an entry of the block is the same entry of the array. -/
private theorem blk3_0 (c : Dev nD) (t : Fin cfg3.N) (p : Fin 1024) (k : Fin 128) :
    iblk3 (F := Ideal) V c 0 t (ix2 p k) = V c main_v38 (ix2 p k) := by
  show V c main_v38 (((cfg3.win 0).blk t).view.emb (ix2 p k)) = _
  congr 1
  funext d; apply Fin.ext
  match d with
  | ⟨0, _⟩ =>
    show win3_0.index t (0 : Fin 2) * 1024 + 1 * p.val = p.val
    have h : win3_0.index t (0 : Fin 2) = 0 := rfl
    omega
  | ⟨1, _⟩ =>
    show win3_0.index t (1 : Fin 2) * 128 + 1 * k.val = k.val
    have h : win3_0.index t (1 : Fin 2) = 0 := rfl
    omega

/-- Window 1's one block is its whole array: an entry of the block is the same entry of the array. -/
private theorem blk3_1 (c : Dev nD) (t : Fin cfg3.N) (k : Fin 128) (j : Fin 128) :
    iblk3 (F := Ideal) V c 1 t (ix2 k j) = V c main_arg13 (ix2 k j) := by
  show V c main_arg13 (((cfg3.win 1).blk t).view.emb (ix2 k j)) = _
  congr 1
  funext d; apply Fin.ext
  match d with
  | ⟨0, _⟩ =>
    show win3_1.index t (0 : Fin 2) * 128 + 1 * k.val = k.val
    have h : win3_1.index t (0 : Fin 2) = 0 := rfl
    omega
  | ⟨1, _⟩ =>
    show win3_1.index t (1 : Fin 2) * 128 + 1 * j.val = j.val
    have h : win3_1.index t (1 : Fin 2) = 0 := rfl
    omega

/-- Window 2's one block is its whole array: an entry of the block is the same entry of the array. -/
private theorem blk3_2 (c : Dev nD) (t : Fin cfg3.N) (z : Fin 1) (j : Fin 128) :
    iblk3 (F := Ideal) V c 2 t (ix2 z j) = V c main_v39 (ix2 z j) := by
  show V c main_v39 (((cfg3.win 2).blk t).view.emb (ix2 z j)) = _
  congr 1
  funext d; apply Fin.ext
  match d with
  | ⟨0, _⟩ =>
    show win3_2.index t (0 : Fin 2) * 1 + 1 * z.val = z.val
    have h : win3_2.index t (0 : Fin 2) = 0 := rfl
    omega
  | ⟨1, _⟩ =>
    show win3_2.index t (1 : Fin 2) * 128 + 1 * j.val = j.val
    have h : win3_2.index t (1 : Fin 2) = 0 := rfl
    omega

/-- Window 3's one block is its whole array: an entry of the block is the same entry of the array. -/
private theorem blk3_3 (c : Dev nD) (t : Fin cfg3.N) (k : Fin 128) (j : Fin 128) :
    iblk3 (F := Ideal) V c 3 t (ix2 k j) = V c main_arg15 (ix2 k j) := by
  show V c main_arg15 (((cfg3.win 3).blk t).view.emb (ix2 k j)) = _
  congr 1
  funext d; apply Fin.ext
  match d with
  | ⟨0, _⟩ =>
    show win3_3.index t (0 : Fin 2) * 128 + 1 * k.val = k.val
    have h : win3_3.index t (0 : Fin 2) = 0 := rfl
    omega
  | ⟨1, _⟩ =>
    show win3_3.index t (1 : Fin 2) * 128 + 1 * j.val = j.val
    have h : win3_3.index t (1 : Fin 2) = 0 := rfl
    omega

/-- Window 4's one block is its whole array: an entry of the block is the same entry of the array. -/
private theorem blk3_4 (c : Dev nD) (t : Fin cfg3.N) (z : Fin 1) (j : Fin 128) :
    iblk3 (F := Ideal) V c 4 t (ix2 z j) = V c main_v40 (ix2 z j) := by
  show V c main_v40 (((cfg3.win 4).blk t).view.emb (ix2 z j)) = _
  congr 1
  funext d; apply Fin.ext
  match d with
  | ⟨0, _⟩ =>
    show win3_4.index t (0 : Fin 2) * 1 + 1 * z.val = z.val
    have h : win3_4.index t (0 : Fin 2) = 0 := rfl
    omega
  | ⟨1, _⟩ =>
    show win3_4.index t (1 : Fin 2) * 128 + 1 * j.val = j.val
    have h : win3_4.index t (1 : Fin 2) = 0 := rfl
    omega

/-- Window 5's one block is its whole array: an entry of the block is the same entry of the array. -/
private theorem blk3_5 (c : Dev nD) (t : Fin cfg3.N) (k : Fin 128) (z : Fin 1) :
    iblk3 (F := Ideal) V c 5 t (ix2 k z) = V c main_arg17 (ix2 k z) := by
  show V c main_arg17 (((cfg3.win 5).blk t).view.emb (ix2 k z)) = _
  congr 1
  funext d; apply Fin.ext
  match d with
  | ⟨0, _⟩ =>
    show win3_5.index t (0 : Fin 2) * 128 + 1 * k.val = k.val
    have h : win3_5.index t (0 : Fin 2) = 0 := rfl
    omega
  | ⟨1, _⟩ =>
    show win3_5.index t (1 : Fin 2) * 1 + 1 * z.val = z.val
    have h : win3_5.index t (1 : Fin 2) = 0 := rfl
    omega

/-- Window 6's one block is its whole array: an entry of the block is the same entry of the array. -/
private theorem blk3_6 (c : Dev nD) (t : Fin cfg3.N) (z : Fin 1) (y : Fin 1) :
    iblk3 (F := Ideal) V c 6 t (ix2 z y) = V c main_v41 (ix2 z y) := by
  show V c main_v41 (((cfg3.win 6).blk t).view.emb (ix2 z y)) = _
  congr 1
  funext d; apply Fin.ext
  match d with
  | ⟨0, _⟩ =>
    show win3_6.index t (0 : Fin 2) * 1 + 1 * z.val = z.val
    have h : win3_6.index t (0 : Fin 2) = 0 := rfl
    omega
  | ⟨1, _⟩ =>
    show win3_6.index t (1 : Fin 2) * 1 + 1 * y.val = y.val
    have h : win3_6.index t (1 : Fin 2) = 0 := rfl
    omega

/-- The output array: row `p` holds the score of row `p` of the input array. -/
private def G3 (c : Dev nD) : S1024x1.Idx → EReal := fun i =>
  score (fun k => V c main_v38 (ix2 (⟨(i 0).val, (i 0).isLt⟩ : Fin 1024) k)) (fun k j => V c main_arg13 (ix2 k j)) (fun j => V c main_v39 (ix2 0 j))
    (fun k j => V c main_arg15 (ix2 k j)) (fun j => V c main_v40 (ix2 0 j)) (fun k => V c main_arg17 (ix2 k 0))
    (V c main_v41 (ix2 0 0))

/-- The one block of the output window is the whole array: an entry of the block is the same entry of the array. -/
private theorem emb3_7 (t : Fin cfg3.N) (p : Fin 1024) (z : Fin 1) :
    ((cfg3.win 7).blk t).view.emb (ix2 p z) = ix2 p z := by
  funext d; apply Fin.ext
  match d with
  | ⟨0, _⟩ =>
    show win3_7.index t (0 : Fin 2) * 1024 + 1 * p.val = p.val
    have h : win3_7.index t (0 : Fin 2) = 0 := rfl
    omega
  | ⟨1, _⟩ =>
    show win3_7.index t (1 : Fin 2) * 1 + 1 * z.val = z.val
    have h : win3_7.index t (1 : Fin 2) = 0 := rfl
    omega

/-- What the grid's point writes back is its block of `G3`. -/
private theorem flushed3_eq (c : Dev nD) (t : Fin cfg3.N) :
    (dat3 (F := Ideal) V c).flushed 7 t = ((cfg3.win 7).blk t).view.read (Elt Ideal) (G3 V c) := by
  show (cfg3.win 7).cut (grid3.coords t) ((dat3 (F := Ideal) V c).after 7 t) = _
  rw [after3_7]
  unfold out3_7
  rw [View.canon_unit_zero zero_offsets]
  simp only [View.ld_unit_zero (S := S1024x128) zero_offsets, View.ld_unit_zero (S := S128x128) zero_offsets,
    View.ld_unit_zero (S := S1x128) zero_offsets, View.ld_unit_zero (S := S128x1) zero_offsets,
    View.ld_unit_zero (S := S1x1) zero_offsets]
  funext j
  obtain ⟨p, z, rfl⟩ : ∃ (p : Fin 1024) (z : Fin 1), j = ix2 p z := ⟨j 0, j 1, eq_ix2 j⟩
  obtain rfl : z = 0 := Subsingleton.elim _ _
  show k3_pay1 (F := Ideal) (iblk3 V c 0 t) (iblk3 V c 1 t) (iblk3 V c 2 t) (iblk3 V c 3 t) (iblk3 V c 4 t) (iblk3 V c 5 t) (iblk3 V c 6 t) (ix2 p 0)
    = G3 V c (((cfg3.win 7).blk t).view.emb (ix2 p 0))
  rw [k3_pay1_apply, emb3_7]
  simp only [blk3_0, blk3_1, blk3_2, blk3_3, blk3_4, blk3_5, blk3_6]
  rfl

/-- An index of the array is in the point's block iff each coordinate is in the block's range on its axis. -/
private theorem mem_blk3_7 (t : Fin cfg3.N) (i : S1024x1.Idx) :
    i ∈ ((cfg3.win 7).blk t).view.set ↔ ∀ a : Fin 2, win3_7.index t a * S1024x1.size a ≤ (i a).val ∧ (i a).val < win3_7.index t a * S1024x1.size a + S1024x1.size a := by
  show i ∈ ((View.whole main_v42).slice (win3_7.rect t)).set ↔ _
  rw [View.set_slice_whole, Rect.mem_set_unit]
  exact Iff.rfl

/-- Every index of the array lies in the one point's block. -/
private theorem cover3_7_arr (i : S1024x1.Idx) :
    ∃ t : Fin cfg3.N, (cfg3.win 7).flush t = true ∧ i ∈ ((cfg3.win 7).blk t).view.set := by
  refine ⟨t3_0, flush3_7 _, ?_⟩
  rw [mem_blk3_7]
  intro a
  match a with
  | ⟨0, _⟩ =>
    show win3_7.index t3_0 (0 : Fin 2) * 1024 ≤ (i 0).val ∧ (i 0).val < win3_7.index t3_0 (0 : Fin 2) * 1024 + 1024
    have h : win3_7.index t3_0 (0 : Fin 2) = 0 := rfl
    have hi : (i 0).val < 1024 := (i 0).isLt
    omega
  | ⟨1, _⟩ =>
    show win3_7.index t3_0 (1 : Fin 2) * 1 ≤ (i 1).val ∧ (i 1).val < win3_7.index t3_0 (1 : Fin 2) * 1 + 1
    have h : win3_7.index t3_0 (1 : Fin 2) = 0 := rfl
    have hi : (i 1).val < 1 := (i 1).isLt
    omega

/-- Entry `(p, 0)` of the predictor's output array, from the arrays the region finds. -/
theorem arr3_apply (c : Dev nD) (p : Fin 1024) :
    (dat3 (F := Ideal) V c).arrAt 7 cfg3.N (ix2 p 0)
      = score (fun k => V c main_v38 (ix2 p k)) (fun k j => V c main_arg13 (ix2 k j)) (fun j => V c main_v39 (ix2 0 j))
          (fun k j => V c main_arg15 (ix2 k j)) (fun j => V c main_v40 (ix2 0 j)) (fun k => V c main_arg17 (ix2 k 0))
          (V c main_v41 (ix2 0 0)) := by
  rw [(dat3 (F := Ideal) V c).arrAt_eq_of_cover 7 (G3 V c) (fun t _ => flushed3_eq V c t) cover3_7_arr]
  rfl

end Cert.Sage

end
-- ==== Proof.RefLayers.lean ====
/-
  The reference program's stages read at an entry.  Each graph layer is a chain of host operations — a sum over the
  neighbour axis, the quotient by eight, two matrix products, two sums, a maximum — whose entry `(P, q)` is the layer's
  formula of row `P` of its own-feature operand and rows `(P, ·)` of its neighbour operand; each of the two predictor
  chains at `(p, 0)` is the score of row `p` of its input.  The operands are left as the stages that compute them.
-/
import proofs.«135038_j60799557042640_1_alg».proof.Proof.Gen.ReferenceIdeal.Read
import proofs.«135038_j60799557042640_1_alg».proof.Proof.Spec
import proofs.«135038_j60799557042640_1_alg».proof.Proof.LibRowDims

noncomputable section

open scoped BigOperators

namespace Cert.Sage

open Idealize.ShloMosaic Idealize.ShloMosaic.ValueIdx Cert.ReferenceIdeal Cert.ReferenceIdeal.Read

variable (x0 : (⟨S1119744x128, .f32⟩ : BufTy).Contents (Elt Ideal)) (x1 : (⟨S995328, .i32⟩ : BufTy).Contents (Elt Ideal)) (x2 : (⟨S110592, .i32⟩ : BufTy).Contents (Elt Ideal)) (x3 : (⟨S12288, .i32⟩ : BufTy).Contents (Elt Ideal))
  (x4 x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal))
  (x10 x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal))
  (x15 : (⟨S128x128, .f32⟩ : BufTy).Contents (Elt Ideal)) (x16 : (⟨S128, .f32⟩ : BufTy).Contents (Elt Ideal)) (x17 : (⟨S128x1, .f32⟩ : BufTy).Contents (Elt Ideal)) (x18 : (⟨S1, .f32⟩ : BufTy).Contents (Elt Ideal))

/-! Layer 1: the composed index maps of its stages are the coordinate indices. -/

/-- The left factor of the own-row product at `(P, q)` under `k` is entry `(P, k)`. -/
theorem lidx_v12 (P : Fin 124416) (q k : Fin 128) : lidx_main_v12 (ix2 P q) k = ix2 P k :=
  funext fun a => Fin.ext (by match a with | ⟨0, _⟩ => rfl | ⟨1, _⟩ => rfl)
/-- The right factor of the own-row product at `(P, q)` under `k` is entry `(k, q)`. -/
theorem ridx_v12 (P : Fin 124416) (q k : Fin 128) : ridx_main_v12 (ix2 P q) k = ix2 k q :=
  funext fun a => Fin.ext (by match a with | ⟨0, _⟩ => rfl | ⟨1, _⟩ => rfl)
/-- The left factor of the neighbour-mean product at `(P, q)` under `k` is entry `(P, k)`. -/
theorem lidx_v13 (P : Fin 124416) (q k : Fin 128) : lidx_main_v13 (ix2 P q) k = ix2 P k :=
  funext fun a => Fin.ext (by match a with | ⟨0, _⟩ => rfl | ⟨1, _⟩ => rfl)
/-- The right factor of the neighbour-mean product at `(P, q)` under `k` is entry `(k, q)`. -/
theorem ridx_v13 (P : Fin 124416) (q k : Fin 128) : ridx_main_v13 (ix2 P q) k = ix2 k q :=
  funext fun a => Fin.ext (by match a with | ⟨0, _⟩ => rfl | ⟨1, _⟩ => rfl)
/-- Term `j` of the neighbour sum at `(P, k)` is entry `(P, j, k)`. -/
theorem idx_v8 (P : Fin 124416) (k : Fin 128) (j : Fin 8) : idx_main_v8 (ix2 P k) j = ix3 P j k :=
  funext fun a => Fin.ext (by match a with | ⟨0, _⟩ => rfl | ⟨1, _⟩ => rfl | ⟨2, _⟩ => rfl)
/-- The bias, broadcast along the rows, is read at the column. -/
theorem idx_v15_v16 (P : Fin 124416) (q : Fin 128) : idx_main_v15 (idx_main_v16 (ix2 P q)) = ix1 q :=
  funext fun a => Fin.ext (by match a with | ⟨0, _⟩ => rfl)

/-- The first layer's result at `(P, q)`. -/
theorem ref_layer1 (P : Fin 124416) (q : Fin 128) :
    val_main_v18 (F := Ideal) x0 x1 x4 x5 x6 (ix2 P q)
      = layerRelu (fun k => val_main_v11 (F := Ideal) x0 (ix2 P k)) (fun j k => val_main_v7 (F := Ideal) x0 x1 (ix3 P j k))
          (fun k q => x4 (ix2 k q)) (fun k q => x5 (ix2 k q)) (fun q => x6 (ix1 q)) q := by
  rw [val_main_v18_apply, val_main_v17_apply, val_main_v14_apply, val_main_v12_apply, val_main_v13_apply,
    val_main_v16_apply, val_main_v15_apply, val_main_call0_v0_apply, val_main_call0_cst_apply]
  simp only [val_main_v10_apply, val_main_v8_apply, val_main_v9_apply, val_main_cst_apply, val_main_cst_1_apply,
    lidx_v12, ridx_v12, lidx_v13, ridx_v13, idx_v8, idx_v15_v16,
    Ideal.hostDivf_def, Ideal.addf_def, Ideal.maximumf_def, Ideal.ofBits_def, Ideal.ofBits_zero_f32, zero_add]
  unfold layerRelu layerPre
  simp only [Ideal.ofBits_zero_f32]

/-! Layer 2: the composed index maps of its stages are the coordinate indices. -/

/-- The left factor of the own-row product at `(P, q)` under `k` is entry `(P, k)`. -/
theorem lidx_v31 (P : Fin 13824) (q k : Fin 128) : lidx_main_v31 (ix2 P q) k = ix2 P k :=
  funext fun a => Fin.ext (by match a with | ⟨0, _⟩ => rfl | ⟨1, _⟩ => rfl)
/-- The right factor of the own-row product at `(P, q)` under `k` is entry `(k, q)`. -/
theorem ridx_v31 (P : Fin 13824) (q k : Fin 128) : ridx_main_v31 (ix2 P q) k = ix2 k q :=
  funext fun a => Fin.ext (by match a with | ⟨0, _⟩ => rfl | ⟨1, _⟩ => rfl)
/-- The left factor of the neighbour-mean product at `(P, q)` under `k` is entry `(P, k)`. -/
theorem lidx_v32 (P : Fin 13824) (q k : Fin 128) : lidx_main_v32 (ix2 P q) k = ix2 P k :=
  funext fun a => Fin.ext (by match a with | ⟨0, _⟩ => rfl | ⟨1, _⟩ => rfl)
/-- The right factor of the neighbour-mean product at `(P, q)` under `k` is entry `(k, q)`. -/
theorem ridx_v32 (P : Fin 13824) (q k : Fin 128) : ridx_main_v32 (ix2 P q) k = ix2 k q :=
  funext fun a => Fin.ext (by match a with | ⟨0, _⟩ => rfl | ⟨1, _⟩ => rfl)
/-- Term `j` of the neighbour sum at `(P, k)` is entry `(P, j, k)`. -/
theorem idx_v27 (P : Fin 13824) (k : Fin 128) (j : Fin 8) : idx_main_v27 (ix2 P k) j = ix3 P j k :=
  funext fun a => Fin.ext (by match a with | ⟨0, _⟩ => rfl | ⟨1, _⟩ => rfl | ⟨2, _⟩ => rfl)
/-- The bias, broadcast along the rows, is read at the column. -/
theorem idx_v34_v35 (P : Fin 13824) (q : Fin 128) : idx_main_v34 (idx_main_v35 (ix2 P q)) = ix1 q :=
  funext fun a => Fin.ext (by match a with | ⟨0, _⟩ => rfl)

/-- The second layer's result at `(P, q)`. -/
theorem ref_layer2 (P : Fin 13824) (q : Fin 128) :
    val_main_v37 (F := Ideal) x0 x1 x2 x4 x5 x6 x7 x8 x9 (ix2 P q)
      = layerRelu (fun k => val_main_v30 (F := Ideal) x0 x1 x4 x5 x6 (ix2 P k))
          (fun j k => val_main_v26 (F := Ideal) x0 x1 x2 x4 x5 x6 (ix3 P j k))
          (fun k q => x7 (ix2 k q)) (fun k q => x8 (ix2 k q)) (fun q => x9 (ix1 q)) q := by
  rw [val_main_v37_apply, val_main_v36_apply, val_main_v33_apply, val_main_v31_apply, val_main_v32_apply,
    val_main_v35_apply, val_main_v34_apply, val_main_call1_v0_apply, val_main_call1_cst_apply]
  simp only [val_main_v29_apply, val_main_v27_apply, val_main_v28_apply, val_main_cst_4_apply, val_main_cst_5_apply,
    lidx_v31, ridx_v31, lidx_v32, ridx_v32, idx_v27, idx_v34_v35,
    Ideal.hostDivf_def, Ideal.addf_def, Ideal.maximumf_def, Ideal.ofBits_def, Ideal.ofBits_zero_f32, zero_add]
  unfold layerRelu layerPre
  simp only [Ideal.ofBits_zero_f32]

/-! Layer 3: the composed index maps of its stages are the coordinate indices. -/

/-- The left factor of the own-row product at `(P, q)` under `k` is entry `(P, k)`. -/
theorem lidx_v50 (P : Fin 1536) (q k : Fin 128) : lidx_main_v50 (ix2 P q) k = ix2 P k :=
  funext fun a => Fin.ext (by match a with | ⟨0, _⟩ => rfl | ⟨1, _⟩ => rfl)
/-- The right factor of the own-row product at `(P, q)` under `k` is entry `(k, q)`. -/
theorem ridx_v50 (P : Fin 1536) (q k : Fin 128) : ridx_main_v50 (ix2 P q) k = ix2 k q :=
  funext fun a => Fin.ext (by match a with | ⟨0, _⟩ => rfl | ⟨1, _⟩ => rfl)
/-- The left factor of the neighbour-mean product at `(P, q)` under `k` is entry `(P, k)`. -/
theorem lidx_v51 (P : Fin 1536) (q k : Fin 128) : lidx_main_v51 (ix2 P q) k = ix2 P k :=
  funext fun a => Fin.ext (by match a with | ⟨0, _⟩ => rfl | ⟨1, _⟩ => rfl)
/-- The right factor of the neighbour-mean product at `(P, q)` under `k` is entry `(k, q)`. -/
theorem ridx_v51 (P : Fin 1536) (q k : Fin 128) : ridx_main_v51 (ix2 P q) k = ix2 k q :=
  funext fun a => Fin.ext (by match a with | ⟨0, _⟩ => rfl | ⟨1, _⟩ => rfl)
/-- Term `j` of the neighbour sum at `(P, k)` is entry `(P, j, k)`. -/
theorem idx_v46 (P : Fin 1536) (k : Fin 128) (j : Fin 8) : idx_main_v46 (ix2 P k) j = ix3 P j k :=
  funext fun a => Fin.ext (by match a with | ⟨0, _⟩ => rfl | ⟨1, _⟩ => rfl | ⟨2, _⟩ => rfl)
/-- The bias, broadcast along the rows, is read at the column. -/
theorem idx_v53_v54 (P : Fin 1536) (q : Fin 128) : idx_main_v53 (idx_main_v54 (ix2 P q)) = ix1 q :=
  funext fun a => Fin.ext (by match a with | ⟨0, _⟩ => rfl)

/-- The third layer's result at `(P, q)`: not clipped. -/
theorem ref_layer3 (P : Fin 1536) (q : Fin 128) :
    val_main_v55 (F := Ideal) x0 x1 x2 x3 x4 x5 x6 x7 x8 x9 x10 x11 x12 (ix2 P q)
      = layerPre (fun k => val_main_v49 (F := Ideal) x0 x1 x2 x4 x5 x6 x7 x8 x9 (ix2 P k))
          (fun j k => val_main_v45 (F := Ideal) x0 x1 x2 x3 x4 x5 x6 x7 x8 x9 (ix3 P j k))
          (fun k q => x10 (ix2 k q)) (fun k q => x11 (ix2 k q)) (fun q => x12 (ix1 q)) q := by
  rw [val_main_v55_apply, val_main_v52_apply, val_main_v50_apply, val_main_v51_apply,
    val_main_v54_apply, val_main_v53_apply]
  simp only [val_main_v48_apply, val_main_v46_apply, val_main_v47_apply, val_main_cst_8_apply, val_main_cst_9_apply,
    lidx_v50, ridx_v50, lidx_v51, ridx_v51, idx_v46, idx_v53_v54,
    Ideal.hostDivf_def, Ideal.addf_def, Ideal.ofBits_def, Ideal.ofBits_zero_f32, zero_add]
  unfold layerPre
  rfl

end Cert.Sage

end
-- ==== Proof.RefScores.lean ====
/-
  The reference program's two predictor chains read at an entry: each is two clipped affine maps and a last affine map
  onto one column, so entry `(p, 0)` is the score of row `p` of the chain's input; the input is left as the stage
  that computes it.
-/
import proofs.«135038_j60799557042640_1_alg».proof.Proof.Gen.ReferenceIdeal.Read
import proofs.«135038_j60799557042640_1_alg».proof.Proof.Spec
import proofs.«135038_j60799557042640_1_alg».proof.Proof.LibRowDims

noncomputable section

open scoped BigOperators

namespace Cert.Sage

open Idealize.ShloMosaic Idealize.ShloMosaic.ValueIdx Cert.ReferenceIdeal Cert.ReferenceIdeal.Read

variable (x0 : (⟨S1119744x128, .f32⟩ : BufTy).Contents (Elt Ideal)) (x1 : (⟨S995328, .i32⟩ : BufTy).Contents (Elt Ideal)) (x2 : (⟨S110592, .i32⟩ : BufTy).Contents (Elt Ideal)) (x3 : (⟨S12288, .i32⟩ : BufTy).Contents (Elt Ideal))
  (x4 x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal))
  (x10 x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal))
  (x15 : (⟨S128x128, .f32⟩ : BufTy).Contents (Elt Ideal)) (x16 : (⟨S128, .f32⟩ : BufTy).Contents (Elt Ideal)) (x17 : (⟨S128x1, .f32⟩ : BufTy).Contents (Elt Ideal)) (x18 : (⟨S1, .f32⟩ : BufTy).Contents (Elt Ideal))

/-- The first clipped affine map of the positive chain at an entry. -/
theorem ref_pos_h1 (p : Fin 512) (j : Fin 128) :
    val_main_v64 (F := Ideal) x0 x1 x2 x3 x4 x5 x6 x7 x8 x9 x10 x11 x12 x13 x14 (ix2 p j)
      = dense (fun k => val_main_v59 (F := Ideal) x0 x1 x2 x3 x4 x5 x6 x7 x8 x9 x10 x11 x12 (ix2 p k)) (fun k j => x13 (ix2 k j)) (fun j => x14 (ix1 j)) j := by
  rw [val_main_v64_apply, val_main_v63_apply, val_main_v60_apply, val_main_v62_apply, val_main_v61_apply,
    val_main_call2_v0_apply, val_main_call2_cst_apply]
  have e1 : ∀ k : Fin 128, lidx_main_v60 (ix2 p j) k = ix2 p k := fun k => funext fun a => Fin.ext (by
    match a with | ⟨0, _⟩ => rfl | ⟨1, _⟩ => rfl)
  have e2 : ∀ k : Fin 128, ridx_main_v60 (ix2 p j) k = ix2 k j := fun k => funext fun a => Fin.ext (by
    match a with | ⟨0, _⟩ => rfl | ⟨1, _⟩ => rfl)
  have e3 : idx_main_v61 (idx_main_v62 (ix2 p j)) = ix1 j := funext fun a => Fin.ext (by
    match a with | ⟨0, _⟩ => rfl)
  simp only [e1, e2, e3]
  rfl

/-- The second clipped affine map of the positive chain at an entry. -/
theorem ref_pos_h2 (p : Fin 512) (j : Fin 128) :
    val_main_v69 (F := Ideal) x0 x1 x2 x3 x4 x5 x6 x7 x8 x9 x10 x11 x12 x13 x14 x15 x16 (ix2 p j)
      = dense (dense (fun k => val_main_v59 (F := Ideal) x0 x1 x2 x3 x4 x5 x6 x7 x8 x9 x10 x11 x12 (ix2 p k)) (fun k j => x13 (ix2 k j)) (fun j => x14 (ix1 j)))
          (fun k j => x15 (ix2 k j)) (fun j => x16 (ix1 j)) j := by
  rw [val_main_v69_apply, val_main_v68_apply, val_main_v65_apply, val_main_v67_apply, val_main_v66_apply,
    val_main_call3_v0_apply, val_main_call3_cst_apply]
  have e1 : ∀ k : Fin 128, lidx_main_v65 (ix2 p j) k = ix2 p k := fun k => funext fun a => Fin.ext (by
    match a with | ⟨0, _⟩ => rfl | ⟨1, _⟩ => rfl)
  have e2 : ∀ k : Fin 128, ridx_main_v65 (ix2 p j) k = ix2 k j := fun k => funext fun a => Fin.ext (by
    match a with | ⟨0, _⟩ => rfl | ⟨1, _⟩ => rfl)
  have e3 : idx_main_v66 (idx_main_v67 (ix2 p j)) = ix1 j := funext fun a => Fin.ext (by
    match a with | ⟨0, _⟩ => rfl)
  simp only [e1, e2, e3, ref_pos_h1]
  rfl

/-- The first returned column at row `p`: the score of row `p` of the product of the source and positive rows. -/
theorem ref_score_pos (p : Fin 512) :
    val_main_v73 (F := Ideal) x0 x1 x2 x3 x4 x5 x6 x7 x8 x9 x10 x11 x12 x13 x14 x15 x16 x17 x18 (ix2 p 0)
      = score (fun k => val_main_v59 (F := Ideal) x0 x1 x2 x3 x4 x5 x6 x7 x8 x9 x10 x11 x12 (ix2 p k)) (fun k j => x13 (ix2 k j)) (fun j => x14 (ix1 j))
          (fun k j => x15 (ix2 k j)) (fun j => x16 (ix1 j)) (fun k => x17 (ix2 k 0)) (x18 (ix1 0)) := by
  rw [val_main_v73_apply, val_main_v70_apply, val_main_v72_apply, val_main_v71_apply]
  have e1 : ∀ k : Fin 128, lidx_main_v70 (ix2 p 0) k = ix2 p k := fun k => funext fun a => Fin.ext (by
    match a with | ⟨0, _⟩ => rfl | ⟨1, _⟩ => rfl)
  have e2 : ∀ k : Fin 128, ridx_main_v70 (ix2 p (0 : Fin 1)) k = ix2 k 0 := fun k => funext fun a => Fin.ext (by
    match a with | ⟨0, _⟩ => rfl | ⟨1, _⟩ => rfl)
  have e3 : idx_main_v71 (idx_main_v72 (ix2 p (0 : Fin 1))) = ix1 0 := funext fun a => Fin.ext (by
    match a with | ⟨0, _⟩ => rfl)
  simp only [e1, e2, e3, ref_pos_h2]
  rfl

/-- The first clipped affine map of the negative chain at an entry. -/
theorem ref_neg_h1 (p : Fin 512) (j : Fin 128) :
    val_main_v79 (F := Ideal) x0 x1 x2 x3 x4 x5 x6 x7 x8 x9 x10 x11 x12 x13 x14 (ix2 p j)
      = dense (fun k => val_main_v74 (F := Ideal) x0 x1 x2 x3 x4 x5 x6 x7 x8 x9 x10 x11 x12 (ix2 p k)) (fun k j => x13 (ix2 k j)) (fun j => x14 (ix1 j)) j := by
  rw [val_main_v79_apply, val_main_v78_apply, val_main_v75_apply, val_main_v77_apply, val_main_v76_apply,
    val_main_call4_v0_apply, val_main_call4_cst_apply]
  have e1 : ∀ k : Fin 128, lidx_main_v75 (ix2 p j) k = ix2 p k := fun k => funext fun a => Fin.ext (by
    match a with | ⟨0, _⟩ => rfl | ⟨1, _⟩ => rfl)
  have e2 : ∀ k : Fin 128, ridx_main_v75 (ix2 p j) k = ix2 k j := fun k => funext fun a => Fin.ext (by
    match a with | ⟨0, _⟩ => rfl | ⟨1, _⟩ => rfl)
  have e3 : idx_main_v76 (idx_main_v77 (ix2 p j)) = ix1 j := funext fun a => Fin.ext (by
    match a with | ⟨0, _⟩ => rfl)
  simp only [e1, e2, e3]
  rfl

/-- The second clipped affine map of the negative chain at an entry. -/
theorem ref_neg_h2 (p : Fin 512) (j : Fin 128) :
    val_main_v84 (F := Ideal) x0 x1 x2 x3 x4 x5 x6 x7 x8 x9 x10 x11 x12 x13 x14 x15 x16 (ix2 p j)
      = dense (dense (fun k => val_main_v74 (F := Ideal) x0 x1 x2 x3 x4 x5 x6 x7 x8 x9 x10 x11 x12 (ix2 p k)) (fun k j => x13 (ix2 k j)) (fun j => x14 (ix1 j)))
          (fun k j => x15 (ix2 k j)) (fun j => x16 (ix1 j)) j := by
  rw [val_main_v84_apply, val_main_v83_apply, val_main_v80_apply, val_main_v82_apply, val_main_v81_apply,
    val_main_call5_v0_apply, val_main_call5_cst_apply]
  have e1 : ∀ k : Fin 128, lidx_main_v80 (ix2 p j) k = ix2 p k := fun k => funext fun a => Fin.ext (by
    match a with | ⟨0, _⟩ => rfl | ⟨1, _⟩ => rfl)
  have e2 : ∀ k : Fin 128, ridx_main_v80 (ix2 p j) k = ix2 k j := fun k => funext fun a => Fin.ext (by
    match a with | ⟨0, _⟩ => rfl | ⟨1, _⟩ => rfl)
  have e3 : idx_main_v81 (idx_main_v82 (ix2 p j)) = ix1 j := funext fun a => Fin.ext (by
    match a with | ⟨0, _⟩ => rfl)
  simp only [e1, e2, e3, ref_neg_h1]
  rfl

/-- The second returned column at row `p`: the score of row `p` of the product of the source and negative rows. -/
theorem ref_score_neg (p : Fin 512) :
    val_main_v88 (F := Ideal) x0 x1 x2 x3 x4 x5 x6 x7 x8 x9 x10 x11 x12 x13 x14 x15 x16 x17 x18 (ix2 p 0)
      = score (fun k => val_main_v74 (F := Ideal) x0 x1 x2 x3 x4 x5 x6 x7 x8 x9 x10 x11 x12 (ix2 p k)) (fun k j => x13 (ix2 k j)) (fun j => x14 (ix1 j))
          (fun k j => x15 (ix2 k j)) (fun j => x16 (ix1 j)) (fun k => x17 (ix2 k 0)) (x18 (ix1 0)) := by
  rw [val_main_v88_apply, val_main_v85_apply, val_main_v87_apply, val_main_v86_apply]
  have e1 : ∀ k : Fin 128, lidx_main_v85 (ix2 p 0) k = ix2 p k := fun k => funext fun a => Fin.ext (by
    match a with | ⟨0, _⟩ => rfl | ⟨1, _⟩ => rfl)
  have e2 : ∀ k : Fin 128, ridx_main_v85 (ix2 p (0 : Fin 1)) k = ix2 k 0 := fun k => funext fun a => Fin.ext (by
    match a with | ⟨0, _⟩ => rfl | ⟨1, _⟩ => rfl)
  have e3 : idx_main_v86 (idx_main_v87 (ix2 p (0 : Fin 1))) = ix1 0 := funext fun a => Fin.ext (by
    match a with | ⟨0, _⟩ => rfl)
  simp only [e1, e2, e3, ref_neg_h2]
  rfl

end Cert.Sage

end
-- ==== Proof.KChain.lean ====
/-
  The kernel program's buffers along @main, identified with the reference's stages.  Between its four regions the
  kernel program applies the same host operations as the reference (index normalisation, row gathers, reshapes, slices,
  the elementwise products and their concatenation), so once a region's output array is known to be the reference's
  stage, the next region's operand arrays are the reference's next stages term for term; a region's output array is
  read at an entry through its blocks, and the reference's chain of stages at the same entry is the same formula.
  An argument array is written by nothing on the way, so every boundary finds it as launched.
-/
import proofs.«135038_j60799557042640_1_alg».proof.Proof.Gen.KernelIdeal.Frame
import proofs.«135038_j60799557042640_1_alg».proof.Proof.Gen.ReferenceIdeal.Read
import proofs.«135038_j60799557042640_1_alg».proof.Proof.RegionArr0
import proofs.«135038_j60799557042640_1_alg».proof.Proof.RegionArr1
import proofs.«135038_j60799557042640_1_alg».proof.Proof.RegionArr2
import proofs.«135038_j60799557042640_1_alg».proof.Proof.RegionArr3
import proofs.«135038_j60799557042640_1_alg».proof.Proof.RefLayers
import proofs.«135038_j60799557042640_1_alg».proof.Proof.RefScores
import Idealize.ShloMosaic.Lib.StableHlo.Run
import Idealize.ShloMosaic.Lib.Pipeline.Value

set_option maxRecDepth 16384

noncomputable section

open scoped BigOperators

namespace Cert.Sage

open Idealize.ShloMosaic Idealize.ShloMosaic.TcCoe Idealize.ShloMosaic.ValueIdx Idealize.SL.Sem Cert.KernelIdeal Cert.KernelIdeal.Gen
open Idealize.ShloMosaic.StableHlo

variable (m : (ℓ : Loc nD τ sig) → Buf (Elt Ideal) ℓ) (ρ : Dev nD → PrngReg)

/-! ## The argument arrays are as launched at every boundary where a later operation reads them -/

theorem w1_arg1 (c : Dev nD) : W1 m ρ c (Proc.devRef .tc main_arg1) = m ((c : Thread nD τ).loc main_arg1) := by
  show StableHlo.after hostOps0 _ (Proc.devRef .tc main_arg1) = _
  after_results
theorem w1_arg4 (c : Dev nD) : W1 m ρ c (Proc.devRef .tc main_arg4) = m ((c : Thread nD τ).loc main_arg4) := by
  show StableHlo.after hostOps0 _ (Proc.devRef .tc main_arg4) = _
  after_results
theorem w1_arg5 (c : Dev nD) : W1 m ρ c (Proc.devRef .tc main_arg5) = m ((c : Thread nD τ).loc main_arg5) := by
  show StableHlo.after hostOps0 _ (Proc.devRef .tc main_arg5) = _
  after_results
theorem w1_arg6 (c : Dev nD) : W1 m ρ c (Proc.devRef .tc main_arg6) = m ((c : Thread nD τ).loc main_arg6) := by
  show StableHlo.after hostOps0 _ (Proc.devRef .tc main_arg6) = _
  after_results
theorem w1_arg0 (c : Dev nD) : W1 m ρ c (Proc.devRef .tc main_arg0) = m ((c : Thread nD τ).loc main_arg0) := by
  show StableHlo.after hostOps0 _ (Proc.devRef .tc main_arg0) = _
  after_results
theorem w1_arg2 (c : Dev nD) : W1 m ρ c (Proc.devRef .tc main_arg2) = m ((c : Thread nD τ).loc main_arg2) := by
  show StableHlo.after hostOps0 _ (Proc.devRef .tc main_arg2) = _
  after_results
theorem w2_arg2 (c : Dev nD) : W2 m ρ c (Proc.devRef .tc main_arg2) = m ((c : Thread nD τ).loc main_arg2) :=
  (W2_of_ne m ρ c main_arg2 (by decide)).trans (w1_arg2 m ρ c)
theorem w3_arg2 (c : Dev nD) : W3 m ρ c (Proc.devRef .tc main_arg2) = m ((c : Thread nD τ).loc main_arg2) := by
  show StableHlo.after hostOps1 _ (Proc.devRef .tc main_arg2) = _
  after_results
  exact w2_arg2 m ρ c
theorem w1_arg7 (c : Dev nD) : W1 m ρ c (Proc.devRef .tc main_arg7) = m ((c : Thread nD τ).loc main_arg7) := by
  show StableHlo.after hostOps0 _ (Proc.devRef .tc main_arg7) = _
  after_results
theorem w2_arg7 (c : Dev nD) : W2 m ρ c (Proc.devRef .tc main_arg7) = m ((c : Thread nD τ).loc main_arg7) :=
  (W2_of_ne m ρ c main_arg7 (by decide)).trans (w1_arg7 m ρ c)
theorem w3_arg7 (c : Dev nD) : W3 m ρ c (Proc.devRef .tc main_arg7) = m ((c : Thread nD τ).loc main_arg7) := by
  show StableHlo.after hostOps1 _ (Proc.devRef .tc main_arg7) = _
  after_results
  exact w2_arg7 m ρ c
theorem w1_arg8 (c : Dev nD) : W1 m ρ c (Proc.devRef .tc main_arg8) = m ((c : Thread nD τ).loc main_arg8) := by
  show StableHlo.after hostOps0 _ (Proc.devRef .tc main_arg8) = _
  after_results
theorem w2_arg8 (c : Dev nD) : W2 m ρ c (Proc.devRef .tc main_arg8) = m ((c : Thread nD τ).loc main_arg8) :=
  (W2_of_ne m ρ c main_arg8 (by decide)).trans (w1_arg8 m ρ c)
theorem w3_arg8 (c : Dev nD) : W3 m ρ c (Proc.devRef .tc main_arg8) = m ((c : Thread nD τ).loc main_arg8) := by
  show StableHlo.after hostOps1 _ (Proc.devRef .tc main_arg8) = _
  after_results
  exact w2_arg8 m ρ c
theorem w1_arg9 (c : Dev nD) : W1 m ρ c (Proc.devRef .tc main_arg9) = m ((c : Thread nD τ).loc main_arg9) := by
  show StableHlo.after hostOps0 _ (Proc.devRef .tc main_arg9) = _
  after_results
theorem w2_arg9 (c : Dev nD) : W2 m ρ c (Proc.devRef .tc main_arg9) = m ((c : Thread nD τ).loc main_arg9) :=
  (W2_of_ne m ρ c main_arg9 (by decide)).trans (w1_arg9 m ρ c)
theorem w3_arg9 (c : Dev nD) : W3 m ρ c (Proc.devRef .tc main_arg9) = m ((c : Thread nD τ).loc main_arg9) := by
  show StableHlo.after hostOps1 _ (Proc.devRef .tc main_arg9) = _
  after_results
  exact w2_arg9 m ρ c
theorem w1_arg3 (c : Dev nD) : W1 m ρ c (Proc.devRef .tc main_arg3) = m ((c : Thread nD τ).loc main_arg3) := by
  show StableHlo.after hostOps0 _ (Proc.devRef .tc main_arg3) = _
  after_results
theorem w2_arg3 (c : Dev nD) : W2 m ρ c (Proc.devRef .tc main_arg3) = m ((c : Thread nD τ).loc main_arg3) :=
  (W2_of_ne m ρ c main_arg3 (by decide)).trans (w1_arg3 m ρ c)
theorem w3_arg3 (c : Dev nD) : W3 m ρ c (Proc.devRef .tc main_arg3) = m ((c : Thread nD τ).loc main_arg3) := by
  show StableHlo.after hostOps1 _ (Proc.devRef .tc main_arg3) = _
  after_results
  exact w2_arg3 m ρ c
theorem w4_arg3 (c : Dev nD) : W4 m ρ c (Proc.devRef .tc main_arg3) = m ((c : Thread nD τ).loc main_arg3) :=
  (W4_of_ne m ρ c main_arg3 (by decide)).trans (w3_arg3 m ρ c)
theorem w5_arg3 (c : Dev nD) : W5 m ρ c (Proc.devRef .tc main_arg3) = m ((c : Thread nD τ).loc main_arg3) := by
  show StableHlo.after hostOps2 _ (Proc.devRef .tc main_arg3) = _
  after_results
  exact w4_arg3 m ρ c
theorem w1_arg10 (c : Dev nD) : W1 m ρ c (Proc.devRef .tc main_arg10) = m ((c : Thread nD τ).loc main_arg10) := by
  show StableHlo.after hostOps0 _ (Proc.devRef .tc main_arg10) = _
  after_results
theorem w2_arg10 (c : Dev nD) : W2 m ρ c (Proc.devRef .tc main_arg10) = m ((c : Thread nD τ).loc main_arg10) :=
  (W2_of_ne m ρ c main_arg10 (by decide)).trans (w1_arg10 m ρ c)
theorem w3_arg10 (c : Dev nD) : W3 m ρ c (Proc.devRef .tc main_arg10) = m ((c : Thread nD τ).loc main_arg10) := by
  show StableHlo.after hostOps1 _ (Proc.devRef .tc main_arg10) = _
  after_results
  exact w2_arg10 m ρ c
theorem w4_arg10 (c : Dev nD) : W4 m ρ c (Proc.devRef .tc main_arg10) = m ((c : Thread nD τ).loc main_arg10) :=
  (W4_of_ne m ρ c main_arg10 (by decide)).trans (w3_arg10 m ρ c)
theorem w5_arg10 (c : Dev nD) : W5 m ρ c (Proc.devRef .tc main_arg10) = m ((c : Thread nD τ).loc main_arg10) := by
  show StableHlo.after hostOps2 _ (Proc.devRef .tc main_arg10) = _
  after_results
  exact w4_arg10 m ρ c
theorem w1_arg11 (c : Dev nD) : W1 m ρ c (Proc.devRef .tc main_arg11) = m ((c : Thread nD τ).loc main_arg11) := by
  show StableHlo.after hostOps0 _ (Proc.devRef .tc main_arg11) = _
  after_results
theorem w2_arg11 (c : Dev nD) : W2 m ρ c (Proc.devRef .tc main_arg11) = m ((c : Thread nD τ).loc main_arg11) :=
  (W2_of_ne m ρ c main_arg11 (by decide)).trans (w1_arg11 m ρ c)
theorem w3_arg11 (c : Dev nD) : W3 m ρ c (Proc.devRef .tc main_arg11) = m ((c : Thread nD τ).loc main_arg11) := by
  show StableHlo.after hostOps1 _ (Proc.devRef .tc main_arg11) = _
  after_results
  exact w2_arg11 m ρ c
theorem w4_arg11 (c : Dev nD) : W4 m ρ c (Proc.devRef .tc main_arg11) = m ((c : Thread nD τ).loc main_arg11) :=
  (W4_of_ne m ρ c main_arg11 (by decide)).trans (w3_arg11 m ρ c)
theorem w5_arg11 (c : Dev nD) : W5 m ρ c (Proc.devRef .tc main_arg11) = m ((c : Thread nD τ).loc main_arg11) := by
  show StableHlo.after hostOps2 _ (Proc.devRef .tc main_arg11) = _
  after_results
  exact w4_arg11 m ρ c
theorem w1_arg12 (c : Dev nD) : W1 m ρ c (Proc.devRef .tc main_arg12) = m ((c : Thread nD τ).loc main_arg12) := by
  show StableHlo.after hostOps0 _ (Proc.devRef .tc main_arg12) = _
  after_results
theorem w2_arg12 (c : Dev nD) : W2 m ρ c (Proc.devRef .tc main_arg12) = m ((c : Thread nD τ).loc main_arg12) :=
  (W2_of_ne m ρ c main_arg12 (by decide)).trans (w1_arg12 m ρ c)
theorem w3_arg12 (c : Dev nD) : W3 m ρ c (Proc.devRef .tc main_arg12) = m ((c : Thread nD τ).loc main_arg12) := by
  show StableHlo.after hostOps1 _ (Proc.devRef .tc main_arg12) = _
  after_results
  exact w2_arg12 m ρ c
theorem w4_arg12 (c : Dev nD) : W4 m ρ c (Proc.devRef .tc main_arg12) = m ((c : Thread nD τ).loc main_arg12) :=
  (W4_of_ne m ρ c main_arg12 (by decide)).trans (w3_arg12 m ρ c)
theorem w5_arg12 (c : Dev nD) : W5 m ρ c (Proc.devRef .tc main_arg12) = m ((c : Thread nD τ).loc main_arg12) := by
  show StableHlo.after hostOps2 _ (Proc.devRef .tc main_arg12) = _
  after_results
  exact w4_arg12 m ρ c
theorem w1_arg13 (c : Dev nD) : W1 m ρ c (Proc.devRef .tc main_arg13) = m ((c : Thread nD τ).loc main_arg13) := by
  show StableHlo.after hostOps0 _ (Proc.devRef .tc main_arg13) = _
  after_results
theorem w2_arg13 (c : Dev nD) : W2 m ρ c (Proc.devRef .tc main_arg13) = m ((c : Thread nD τ).loc main_arg13) :=
  (W2_of_ne m ρ c main_arg13 (by decide)).trans (w1_arg13 m ρ c)
theorem w3_arg13 (c : Dev nD) : W3 m ρ c (Proc.devRef .tc main_arg13) = m ((c : Thread nD τ).loc main_arg13) := by
  show StableHlo.after hostOps1 _ (Proc.devRef .tc main_arg13) = _
  after_results
  exact w2_arg13 m ρ c
theorem w4_arg13 (c : Dev nD) : W4 m ρ c (Proc.devRef .tc main_arg13) = m ((c : Thread nD τ).loc main_arg13) :=
  (W4_of_ne m ρ c main_arg13 (by decide)).trans (w3_arg13 m ρ c)
theorem w5_arg13 (c : Dev nD) : W5 m ρ c (Proc.devRef .tc main_arg13) = m ((c : Thread nD τ).loc main_arg13) := by
  show StableHlo.after hostOps2 _ (Proc.devRef .tc main_arg13) = _
  after_results
  exact w4_arg13 m ρ c
theorem w6_arg13 (c : Dev nD) : W6 m ρ c (Proc.devRef .tc main_arg13) = m ((c : Thread nD τ).loc main_arg13) :=
  (W6_of_ne m ρ c main_arg13 (by decide)).trans (w5_arg13 m ρ c)
theorem w7_arg13 (c : Dev nD) : W7 m ρ c (Proc.devRef .tc main_arg13) = m ((c : Thread nD τ).loc main_arg13) := by
  show StableHlo.after hostOps3 _ (Proc.devRef .tc main_arg13) = _
  after_results
  exact w6_arg13 m ρ c
theorem w1_arg14 (c : Dev nD) : W1 m ρ c (Proc.devRef .tc main_arg14) = m ((c : Thread nD τ).loc main_arg14) := by
  show StableHlo.after hostOps0 _ (Proc.devRef .tc main_arg14) = _
  after_results
theorem w2_arg14 (c : Dev nD) : W2 m ρ c (Proc.devRef .tc main_arg14) = m ((c : Thread nD τ).loc main_arg14) :=
  (W2_of_ne m ρ c main_arg14 (by decide)).trans (w1_arg14 m ρ c)
theorem w3_arg14 (c : Dev nD) : W3 m ρ c (Proc.devRef .tc main_arg14) = m ((c : Thread nD τ).loc main_arg14) := by
  show StableHlo.after hostOps1 _ (Proc.devRef .tc main_arg14) = _
  after_results
  exact w2_arg14 m ρ c
theorem w4_arg14 (c : Dev nD) : W4 m ρ c (Proc.devRef .tc main_arg14) = m ((c : Thread nD τ).loc main_arg14) :=
  (W4_of_ne m ρ c main_arg14 (by decide)).trans (w3_arg14 m ρ c)
theorem w5_arg14 (c : Dev nD) : W5 m ρ c (Proc.devRef .tc main_arg14) = m ((c : Thread nD τ).loc main_arg14) := by
  show StableHlo.after hostOps2 _ (Proc.devRef .tc main_arg14) = _
  after_results
  exact w4_arg14 m ρ c
theorem w6_arg14 (c : Dev nD) : W6 m ρ c (Proc.devRef .tc main_arg14) = m ((c : Thread nD τ).loc main_arg14) :=
  (W6_of_ne m ρ c main_arg14 (by decide)).trans (w5_arg14 m ρ c)
theorem w7_arg14 (c : Dev nD) : W7 m ρ c (Proc.devRef .tc main_arg14) = m ((c : Thread nD τ).loc main_arg14) := by
  show StableHlo.after hostOps3 _ (Proc.devRef .tc main_arg14) = _
  after_results
  exact w6_arg14 m ρ c
theorem w1_arg15 (c : Dev nD) : W1 m ρ c (Proc.devRef .tc main_arg15) = m ((c : Thread nD τ).loc main_arg15) := by
  show StableHlo.after hostOps0 _ (Proc.devRef .tc main_arg15) = _
  after_results
theorem w2_arg15 (c : Dev nD) : W2 m ρ c (Proc.devRef .tc main_arg15) = m ((c : Thread nD τ).loc main_arg15) :=
  (W2_of_ne m ρ c main_arg15 (by decide)).trans (w1_arg15 m ρ c)
theorem w3_arg15 (c : Dev nD) : W3 m ρ c (Proc.devRef .tc main_arg15) = m ((c : Thread nD τ).loc main_arg15) := by
  show StableHlo.after hostOps1 _ (Proc.devRef .tc main_arg15) = _
  after_results
  exact w2_arg15 m ρ c
theorem w4_arg15 (c : Dev nD) : W4 m ρ c (Proc.devRef .tc main_arg15) = m ((c : Thread nD τ).loc main_arg15) :=
  (W4_of_ne m ρ c main_arg15 (by decide)).trans (w3_arg15 m ρ c)
theorem w5_arg15 (c : Dev nD) : W5 m ρ c (Proc.devRef .tc main_arg15) = m ((c : Thread nD τ).loc main_arg15) := by
  show StableHlo.after hostOps2 _ (Proc.devRef .tc main_arg15) = _
  after_results
  exact w4_arg15 m ρ c
theorem w6_arg15 (c : Dev nD) : W6 m ρ c (Proc.devRef .tc main_arg15) = m ((c : Thread nD τ).loc main_arg15) :=
  (W6_of_ne m ρ c main_arg15 (by decide)).trans (w5_arg15 m ρ c)
theorem w7_arg15 (c : Dev nD) : W7 m ρ c (Proc.devRef .tc main_arg15) = m ((c : Thread nD τ).loc main_arg15) := by
  show StableHlo.after hostOps3 _ (Proc.devRef .tc main_arg15) = _
  after_results
  exact w6_arg15 m ρ c
theorem w1_arg16 (c : Dev nD) : W1 m ρ c (Proc.devRef .tc main_arg16) = m ((c : Thread nD τ).loc main_arg16) := by
  show StableHlo.after hostOps0 _ (Proc.devRef .tc main_arg16) = _
  after_results
theorem w2_arg16 (c : Dev nD) : W2 m ρ c (Proc.devRef .tc main_arg16) = m ((c : Thread nD τ).loc main_arg16) :=
  (W2_of_ne m ρ c main_arg16 (by decide)).trans (w1_arg16 m ρ c)
theorem w3_arg16 (c : Dev nD) : W3 m ρ c (Proc.devRef .tc main_arg16) = m ((c : Thread nD τ).loc main_arg16) := by
  show StableHlo.after hostOps1 _ (Proc.devRef .tc main_arg16) = _
  after_results
  exact w2_arg16 m ρ c
theorem w4_arg16 (c : Dev nD) : W4 m ρ c (Proc.devRef .tc main_arg16) = m ((c : Thread nD τ).loc main_arg16) :=
  (W4_of_ne m ρ c main_arg16 (by decide)).trans (w3_arg16 m ρ c)
theorem w5_arg16 (c : Dev nD) : W5 m ρ c (Proc.devRef .tc main_arg16) = m ((c : Thread nD τ).loc main_arg16) := by
  show StableHlo.after hostOps2 _ (Proc.devRef .tc main_arg16) = _
  after_results
  exact w4_arg16 m ρ c
theorem w6_arg16 (c : Dev nD) : W6 m ρ c (Proc.devRef .tc main_arg16) = m ((c : Thread nD τ).loc main_arg16) :=
  (W6_of_ne m ρ c main_arg16 (by decide)).trans (w5_arg16 m ρ c)
theorem w7_arg16 (c : Dev nD) : W7 m ρ c (Proc.devRef .tc main_arg16) = m ((c : Thread nD τ).loc main_arg16) := by
  show StableHlo.after hostOps3 _ (Proc.devRef .tc main_arg16) = _
  after_results
  exact w6_arg16 m ρ c
theorem w1_arg17 (c : Dev nD) : W1 m ρ c (Proc.devRef .tc main_arg17) = m ((c : Thread nD τ).loc main_arg17) := by
  show StableHlo.after hostOps0 _ (Proc.devRef .tc main_arg17) = _
  after_results
theorem w2_arg17 (c : Dev nD) : W2 m ρ c (Proc.devRef .tc main_arg17) = m ((c : Thread nD τ).loc main_arg17) :=
  (W2_of_ne m ρ c main_arg17 (by decide)).trans (w1_arg17 m ρ c)
theorem w3_arg17 (c : Dev nD) : W3 m ρ c (Proc.devRef .tc main_arg17) = m ((c : Thread nD τ).loc main_arg17) := by
  show StableHlo.after hostOps1 _ (Proc.devRef .tc main_arg17) = _
  after_results
  exact w2_arg17 m ρ c
theorem w4_arg17 (c : Dev nD) : W4 m ρ c (Proc.devRef .tc main_arg17) = m ((c : Thread nD τ).loc main_arg17) :=
  (W4_of_ne m ρ c main_arg17 (by decide)).trans (w3_arg17 m ρ c)
theorem w5_arg17 (c : Dev nD) : W5 m ρ c (Proc.devRef .tc main_arg17) = m ((c : Thread nD τ).loc main_arg17) := by
  show StableHlo.after hostOps2 _ (Proc.devRef .tc main_arg17) = _
  after_results
  exact w4_arg17 m ρ c
theorem w6_arg17 (c : Dev nD) : W6 m ρ c (Proc.devRef .tc main_arg17) = m ((c : Thread nD τ).loc main_arg17) :=
  (W6_of_ne m ρ c main_arg17 (by decide)).trans (w5_arg17 m ρ c)
theorem w7_arg17 (c : Dev nD) : W7 m ρ c (Proc.devRef .tc main_arg17) = m ((c : Thread nD τ).loc main_arg17) := by
  show StableHlo.after hostOps3 _ (Proc.devRef .tc main_arg17) = _
  after_results
  exact w6_arg17 m ρ c
theorem w1_arg18 (c : Dev nD) : W1 m ρ c (Proc.devRef .tc main_arg18) = m ((c : Thread nD τ).loc main_arg18) := by
  show StableHlo.after hostOps0 _ (Proc.devRef .tc main_arg18) = _
  after_results
theorem w2_arg18 (c : Dev nD) : W2 m ρ c (Proc.devRef .tc main_arg18) = m ((c : Thread nD τ).loc main_arg18) :=
  (W2_of_ne m ρ c main_arg18 (by decide)).trans (w1_arg18 m ρ c)
theorem w3_arg18 (c : Dev nD) : W3 m ρ c (Proc.devRef .tc main_arg18) = m ((c : Thread nD τ).loc main_arg18) := by
  show StableHlo.after hostOps1 _ (Proc.devRef .tc main_arg18) = _
  after_results
  exact w2_arg18 m ρ c
theorem w4_arg18 (c : Dev nD) : W4 m ρ c (Proc.devRef .tc main_arg18) = m ((c : Thread nD τ).loc main_arg18) :=
  (W4_of_ne m ρ c main_arg18 (by decide)).trans (w3_arg18 m ρ c)
theorem w5_arg18 (c : Dev nD) : W5 m ρ c (Proc.devRef .tc main_arg18) = m ((c : Thread nD τ).loc main_arg18) := by
  show StableHlo.after hostOps2 _ (Proc.devRef .tc main_arg18) = _
  after_results
  exact w4_arg18 m ρ c
theorem w6_arg18 (c : Dev nD) : W6 m ρ c (Proc.devRef .tc main_arg18) = m ((c : Thread nD τ).loc main_arg18) :=
  (W6_of_ne m ρ c main_arg18 (by decide)).trans (w5_arg18 m ρ c)
theorem w7_arg18 (c : Dev nD) : W7 m ρ c (Proc.devRef .tc main_arg18) = m ((c : Thread nD τ).loc main_arg18) := by
  show StableHlo.after hostOps3 _ (Proc.devRef .tc main_arg18) = _
  after_results
  exact w6_arg18 m ρ c

/-! ## A bias vector reshaped to one row, read at its entries -/

/-- Entry `(0, q)` of a 128-vector laid out as one row is entry `q` of the vector. -/
theorem oneRow_apply (x : S128.Idx → EReal) (q : Fin 128) :
    shapeCast S1x128 x shapeCasts_S128_S1x128 (ix2 0 q) = x (ix1 q) :=
  shapeCast_apply x shapeCasts_S128_S1x128 (ix2 0 q) (ix1 q) (by
    rewrite [Shape.rowMajor_val_one, Shape.rowMajor_val_two]; show q.val = 0 * 128 + q.val; omega)

/-- The one entry of a 1-vector laid out as a 1×1 matrix. -/
theorem oneCell_apply (x : S1.Idx → EReal) :
    shapeCast S1x1 x shapeCasts_S1_S1x1 (ix2 0 0) = x (ix1 0) :=
  shapeCast_apply x shapeCasts_S1_S1x1 (ix2 0 0) (ix1 0) (by
    rewrite [Shape.rowMajor_val_one, Shape.rowMajor_val_two]; rfl)

/-! ## The first layer -/

theorem in0_self (c : Dev nD) : V1 m ρ c main_v8 = Cert.ReferenceIdeal.Read.val_main_v11 (F := Ideal) (m ((c : Thread nD τ).loc main_arg0)) := by
  show StableHlo.after hostOps0 _ (Proc.devRef .tc main_v8) = _
  after_results
  rfl

theorem in0_neigh (c : Dev nD) : V1 m ρ c main_v7 = Cert.ReferenceIdeal.Read.val_main_v7 (F := Ideal) (m ((c : Thread nD τ).loc main_arg0)) (m ((c : Thread nD τ).loc main_arg1)) := by
  show StableHlo.after hostOps0 _ (Proc.devRef .tc main_v7) = _
  after_results
  rfl

theorem in0_ws (c : Dev nD) : V1 m ρ c main_arg4 = (m ((c : Thread nD τ).loc main_arg4)) := w1_arg4 m ρ c
theorem in0_wn (c : Dev nD) : V1 m ρ c main_arg5 = (m ((c : Thread nD τ).loc main_arg5)) := w1_arg5 m ρ c

theorem in0_bias (c : Dev nD) : (fun q : Fin 128 => V1 m ρ c main_v9 (ix2 0 q)) = fun q => (m ((c : Thread nD τ).loc main_arg6)) (ix1 q) := by
  have e : V1 m ρ c main_v9 = shapeCast S1x128 (m ((c : Thread nD τ).loc main_arg6)) shapeCasts_S128_S1x128 := by
    show StableHlo.after hostOps0 _ (Proc.devRef .tc main_v9) = _
    after_results
    rfl
  funext q
  rw [e]
  exact oneRow_apply _ q

/-- The first region leaves the reference's first clipped layer in its output array. -/
theorem layer1 (c : Dev nD) :
    W2 m ρ c (Proc.devRef .tc main_v10) = Cert.ReferenceIdeal.Read.val_main_v18 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  refine (W2_arr m ρ c 5).trans ?_
  funext i
  obtain ⟨P, q, rfl⟩ : ∃ (P : Fin 124416) (q : Fin 128), i = ix2 P q := ⟨i 0, i 1, eq_ix2 i⟩
  refine (arr0_apply (V1 m ρ) c P q).trans ?_
  rw [ref_layer1, in0_self, in0_neigh, in0_ws, in0_wn, in0_bias]

/-! ## The second layer -/

theorem in1_self (c : Dev nD) : V3 m ρ c main_v19 = Cert.ReferenceIdeal.Read.val_main_v30 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  show StableHlo.after hostOps1 _ (Proc.devRef .tc main_v19) = _
  after_results
  rw [layer1]
  rfl

theorem in1_neigh (c : Dev nD) : V3 m ρ c main_v18 = Cert.ReferenceIdeal.Read.val_main_v26 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  show StableHlo.after hostOps1 _ (Proc.devRef .tc main_v18) = _
  after_results
  rw [layer1, w2_arg2]
  rfl

theorem in1_ws (c : Dev nD) : V3 m ρ c main_arg7 = (m ((c : Thread nD τ).loc main_arg7)) := w3_arg7 m ρ c
theorem in1_wn (c : Dev nD) : V3 m ρ c main_arg8 = (m ((c : Thread nD τ).loc main_arg8)) := w3_arg8 m ρ c

theorem in1_bias (c : Dev nD) : (fun q : Fin 128 => V3 m ρ c main_v20 (ix2 0 q)) = fun q => (m ((c : Thread nD τ).loc main_arg9)) (ix1 q) := by
  have e : V3 m ρ c main_v20 = shapeCast S1x128 (W2 m ρ c (Proc.devRef .tc main_arg9)) shapeCasts_S128_S1x128 := by
    show StableHlo.after hostOps1 _ (Proc.devRef .tc main_v20) = _
    after_results
    rfl
  funext q
  rw [e, w2_arg9]
  exact oneRow_apply _ q

/-- The second region leaves the reference's second clipped layer in its output array. -/
theorem layer2 (c : Dev nD) :
    W4 m ρ c (Proc.devRef .tc main_v21) = Cert.ReferenceIdeal.Read.val_main_v37 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 5).trans ?_
  funext i
  obtain ⟨P, q, rfl⟩ : ∃ (P : Fin 13824) (q : Fin 128), i = ix2 P q := ⟨i 0, i 1, eq_ix2 i⟩
  refine (arr1_apply (V3 m ρ) c P q).trans ?_
  rw [ref_layer2, in1_self, in1_neigh, in1_ws, in1_wn, in1_bias]

/-! ## The third layer -/

theorem in2_self (c : Dev nD) : V5 m ρ c main_v30 = Cert.ReferenceIdeal.Read.val_main_v49 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2 _ (Proc.devRef .tc main_v30) = _
  after_results
  rw [layer2]
  rfl

theorem in2_neigh (c : Dev nD) : V5 m ρ c main_v29 = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2 _ (Proc.devRef .tc main_v29) = _
  after_results
  rw [layer2, w4_arg3]
  rfl

theorem in2_ws (c : Dev nD) : V5 m ρ c main_arg10 = (m ((c : Thread nD τ).loc main_arg10)) := w5_arg10 m ρ c
theorem in2_wn (c : Dev nD) : V5 m ρ c main_arg11 = (m ((c : Thread nD τ).loc main_arg11)) := w5_arg11 m ρ c

theorem in2_bias (c : Dev nD) : (fun q : Fin 128 => V5 m ρ c main_v31 (ix2 0 q)) = fun q => (m ((c : Thread nD τ).loc main_arg12)) (ix1 q) := by
  have e : V5 m ρ c main_v31 = shapeCast S1x128 (W4 m ρ c (Proc.devRef .tc main_arg12)) shapeCasts_S128_S1x128 := by
    show StableHlo.after hostOps2 _ (Proc.devRef .tc main_v31) = _
    after_results
    rfl
  funext q
  rw [e, w4_arg12]
  exact oneRow_apply _ q

/-- The third region leaves the reference's third layer (not clipped) in its output array. -/
theorem layer3 (c : Dev nD) :
    W6 m ρ c (Proc.devRef .tc main_v32) = Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W6_arr m ρ c 5).trans ?_
  funext i
  obtain ⟨P, q, rfl⟩ : ∃ (P : Fin 1536) (q : Fin 128), i = ix2 P q := ⟨i 0, i 1, eq_ix2 i⟩
  refine (arr2_apply (V5 m ρ) c P q).trans ?_
  rw [ref_layer3, in2_self, in2_neigh, in2_ws, in2_wn, in2_bias]

/-! ## The predictor -/

/-- The predictor's input: the source rows times the positive rows stacked on the source rows times the negative rows. -/
theorem in3_x (c : Dev nD) : V7 m ρ c main_v38
    = concatenate S1024x128 0 [⟨S512x128, Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))⟩,
        ⟨S512x128, Cert.ReferenceIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))⟩] concatenates_S512x128_S512x128_S1024x128_d0 := by
  show StableHlo.after hostOps3 _ (Proc.devRef .tc main_v38) = _
  after_results
  rw [layer3]
  rfl

theorem in3_w1 (c : Dev nD) : V7 m ρ c main_arg13 = (m ((c : Thread nD τ).loc main_arg13)) := w7_arg13 m ρ c
theorem in3_w2 (c : Dev nD) : V7 m ρ c main_arg15 = (m ((c : Thread nD τ).loc main_arg15)) := w7_arg15 m ρ c
theorem in3_w3 (c : Dev nD) : V7 m ρ c main_arg17 = (m ((c : Thread nD τ).loc main_arg17)) := w7_arg17 m ρ c

theorem in3_b1 (c : Dev nD) : (fun q : Fin 128 => V7 m ρ c main_v39 (ix2 0 q)) = fun q => (m ((c : Thread nD τ).loc main_arg14)) (ix1 q) := by
  have e : V7 m ρ c main_v39 = shapeCast S1x128 (W6 m ρ c (Proc.devRef .tc main_arg14)) shapeCasts_S128_S1x128 := by
    show StableHlo.after hostOps3 _ (Proc.devRef .tc main_v39) = _
    after_results
    rfl
  funext q
  rw [e, w6_arg14]
  exact oneRow_apply _ q

theorem in3_b2 (c : Dev nD) : (fun q : Fin 128 => V7 m ρ c main_v40 (ix2 0 q)) = fun q => (m ((c : Thread nD τ).loc main_arg16)) (ix1 q) := by
  have e : V7 m ρ c main_v40 = shapeCast S1x128 (W6 m ρ c (Proc.devRef .tc main_arg16)) shapeCasts_S128_S1x128 := by
    show StableHlo.after hostOps3 _ (Proc.devRef .tc main_v40) = _
    after_results
    rfl
  funext q
  rw [e, w6_arg16]
  exact oneRow_apply _ q

theorem in3_b3 (c : Dev nD) : V7 m ρ c main_v41 (ix2 0 0) = (m ((c : Thread nD τ).loc main_arg18)) (ix1 0) := by
  have e : V7 m ρ c main_v41 = shapeCast S1x1 (W6 m ρ c (Proc.devRef .tc main_arg18)) shapeCasts_S1_S1x1 := by
    show StableHlo.after hostOps3 _ (Proc.devRef .tc main_v41) = _
    after_results
    rfl
  rw [e, w6_arg18]
  exact oneCell_apply _

/-- Row `p` of the upper half of the predictor's input is row `p` of the positive products. -/
theorem in3_x_pos (c : Dev nD) (p : Fin 512) :
    (fun k : Fin 128 => V7 m ρ c main_v38 (ix2 (⟨p.val, (by have := p.isLt; omega)⟩ : Fin 1024) k))
      = fun k => Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix2 p k) := by
  funext k
  rw [in3_x]
  exact concatenate_pair_apply_left (t := S1024x128) (s₁ := S512x128) (s₂ := S512x128) 0 _ _
    concatenates_S512x128_S512x128_S1024x128_d0 (ix2 (⟨p.val, by have := p.isLt; omega⟩ : Fin 1024) k) rfl (ix2 p k)
    (fun b => match b with | ⟨0, _⟩ => rfl | ⟨1, _⟩ => rfl)

/-- Row `512 + p` of the predictor's input is row `p` of the negative products. -/
theorem in3_x_neg (c : Dev nD) (p : Fin 512) :
    (fun k : Fin 128 => V7 m ρ c main_v38 (ix2 (⟨512 + p.val, (by have := p.isLt; omega)⟩ : Fin 1024) k))
      = fun k => Cert.ReferenceIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix2 p k) := by
  funext k
  rw [in3_x]
  exact concatenate_pair_apply_right (t := S1024x128) (s₁ := S512x128) (s₂ := S512x128) 0 _ _
    concatenates_S512x128_S512x128_S1024x128_d0 (ix2 (⟨512 + p.val, by have := p.isLt; omega⟩ : Fin 1024) k) rfl rfl (ix2 p k)
    (fun b hb => match b, hb with | ⟨0, _⟩, hb => absurd rfl hb | ⟨1, _⟩, _ => rfl)
    (by show p.val + 512 = 512 + p.val; omega)

/-! ## The two results -/

/-- The first result buffer ends at the reference's first result. -/
theorem result_pos (c : Dev nD) :
    W9 m ρ c (Proc.devRef .tc main_v43) = Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  have e : W9 m ρ c (Proc.devRef .tc main_v43)
      = extractStridedSlice S512x1 ![0, 0] (W8 m ρ c (Proc.devRef .tc main_v42)) slices_S1024x1_S512x1_0_0 := by
    show StableHlo.after hostOps4 _ (Proc.devRef .tc main_v43) = _
    after_results
  rw [e]
  funext i
  obtain ⟨p, z, rfl⟩ : ∃ (p : Fin 512) (z : Fin 1), i = ix2 p z := ⟨i 0, i 1, eq_ix2 i⟩
  obtain rfl : z = 0 := Subsingleton.elim _ _
  rw [extractStridedSlice_apply ![0, 0] _ slices_S1024x1_S512x1_0_0 (ix2 p 0) (ix2 (⟨p.val, (by have := p.isLt; omega)⟩ : Fin 1024) 0)
    (fun a => match a with
      | ⟨0, _⟩ => by show p.val = 0 + p.val; omega
      | ⟨1, _⟩ => by show (0 : Nat) = 0 + 0; rfl)]
  refine (congrFun (W8_arr m ρ c 7) _).trans ?_
  refine (arr3_apply (V7 m ρ) c _).trans ?_
  rw [ref_score_pos, in3_x_pos, in3_w1, in3_w2, in3_w3, in3_b1, in3_b2, in3_b3]

/-- The second result buffer ends at the reference's second result. -/
theorem result_neg (c : Dev nD) :
    W9 m ρ c (Proc.devRef .tc main_v44) = Cert.ReferenceIdeal.Read.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  have e : W9 m ρ c (Proc.devRef .tc main_v44)
      = extractStridedSlice S512x1 ![512, 0] (W8 m ρ c (Proc.devRef .tc main_v42)) slices_S1024x1_S512x1_512_0 := by
    show StableHlo.after hostOps4 _ (Proc.devRef .tc main_v44) = _
    after_results
  rw [e]
  funext i
  obtain ⟨p, z, rfl⟩ : ∃ (p : Fin 512) (z : Fin 1), i = ix2 p z := ⟨i 0, i 1, eq_ix2 i⟩
  obtain rfl : z = 0 := Subsingleton.elim _ _
  rw [extractStridedSlice_apply ![512, 0] _ slices_S1024x1_S512x1_512_0 (ix2 p 0) (ix2 (⟨512 + p.val, (by have := p.isLt; omega)⟩ : Fin 1024) 0)
    (fun a => match a with
      | ⟨0, _⟩ => by show 512 + p.val = 512 + p.val; rfl
      | ⟨1, _⟩ => by show (0 : Nat) = 0 + 0; rfl)]
  refine (congrFun (W8_arr m ρ c 7) _).trans ?_
  refine (arr3_apply (V7 m ρ) c _).trans ?_
  rw [ref_score_neg, in3_x_neg, in3_w1, in3_w2, in3_w3, in3_b1, in3_b2, in3_b3]

end Cert.Sage

end
-- ==== Proof.lean ====
/-
  The certificate's five claims for the three-layer mean-aggregating graph network with a link predictor.

  Both programs compute, for every destination node, the layer row  `s · Ws + (⅛ Σⱼ gⱼ) · Wn + b`  (clipped at zero in
  the first two layers), feed each layer's rows to the next through the same row gathers, and score the elementwise
  products of the last layer's source rows with its positive and with its negative rows by two clipped affine maps and a
  last affine map.  The kernel program does each layer in 512-row blocks over a grid and scores both products in one
  stacked pass; the reference does each layer and each score on whole arrays.  At the extended reals a change of float
  format is the identity, a block matrix product is the same sum as the whole one, and a row of the stacked pass depends
  on that row alone, so the two results agree entry by entry: no algebraic law beyond reading each operation at an index
  is used, and the precondition is not opened.

  The three frames are the generated ones (the reference's is its generated run with the results dropped); the
  idealization rewrote nothing, so `preserves` is trivial.
-/
import proofs.«135038_j60799557042640_1_alg».proof.Defs
import proofs.«135038_j60799557042640_1_alg».proof.Proof.Gen.Kernel
import proofs.«135038_j60799557042640_1_alg».proof.Proof.Gen.Kernel.Skeleton
import proofs.«135038_j60799557042640_1_alg».proof.Proof.Gen.Kernel.Launch
import proofs.«135038_j60799557042640_1_alg».proof.Proof.Gen.Kernel.Points
import proofs.«135038_j60799557042640_1_alg».proof.Proof.Gen.Kernel.Frame
import proofs.«135038_j60799557042640_1_alg».proof.Proof.Gen.KernelIdeal
import proofs.«135038_j60799557042640_1_alg».proof.Proof.Gen.KernelIdeal.Skeleton
import proofs.«135038_j60799557042640_1_alg».proof.Proof.Gen.KernelIdeal.Launch
import proofs.«135038_j60799557042640_1_alg».proof.Proof.Gen.KernelIdeal.Points
import proofs.«135038_j60799557042640_1_alg».proof.Proof.Gen.KernelIdeal.Frame
import proofs.«135038_j60799557042640_1_alg».proof.Proof.Gen.ReferenceIdeal
import proofs.«135038_j60799557042640_1_alg».proof.Proof.Gen.ReferenceIdeal.Run
import proofs.«135038_j60799557042640_1_alg».proof.Proof.Gen.ReferenceIdeal.Read
import proofs.«135038_j60799557042640_1_alg».proof.Proof.Gen.Pre_finite_inputs
import proofs.«135038_j60799557042640_1_alg».proof.Proof.KRun
import proofs.«135038_j60799557042640_1_alg».proof.Proof.KChain
import Idealize.ShloMosaic.Adequacy
import Idealize.ShloMosaic.Init

noncomputable section

namespace Cert.Proof

open Idealize.ShloMosaic Idealize.SL.Sem

section Congruence

open Cert.ReferenceIdeal Cert.ReferenceIdeal.Read

/-- The reference's two result stages are functions of the nineteen argument arrays: equal arguments, equal results. -/
theorem results_congr
    {x0 : (⟨S1119744x128, .f32⟩ : BufTy).Contents (Elt Ideal)} {x1 : (⟨S995328, .i32⟩ : BufTy).Contents (Elt Ideal)} {x2 : (⟨S110592, .i32⟩ : BufTy).Contents (Elt Ideal)} {x3 : (⟨S12288, .i32⟩ : BufTy).Contents (Elt Ideal)}
    {x4 x5 : (⟨S128x128, .f32⟩ : BufTy).Contents (Elt Ideal)} {x6 : (⟨S128, .f32⟩ : BufTy).Contents (Elt Ideal)} {x7 x8 : (⟨S128x128, .f32⟩ : BufTy).Contents (Elt Ideal)} {x9 : (⟨S128, .f32⟩ : BufTy).Contents (Elt Ideal)}
    {x10 x11 : (⟨S128x128, .f32⟩ : BufTy).Contents (Elt Ideal)} {x12 : (⟨S128, .f32⟩ : BufTy).Contents (Elt Ideal)} {x13 : (⟨S128x128, .f32⟩ : BufTy).Contents (Elt Ideal)} {x14 : (⟨S128, .f32⟩ : BufTy).Contents (Elt Ideal)}
    {x15 : (⟨S128x128, .f32⟩ : BufTy).Contents (Elt Ideal)} {x16 : (⟨S128, .f32⟩ : BufTy).Contents (Elt Ideal)} {x17 : (⟨S128x1, .f32⟩ : BufTy).Contents (Elt Ideal)} {x18 : (⟨S1, .f32⟩ : BufTy).Contents (Elt Ideal)}
    {y0 : (⟨S1119744x128, .f32⟩ : BufTy).Contents (Elt Ideal)} {y1 : (⟨S995328, .i32⟩ : BufTy).Contents (Elt Ideal)} {y2 : (⟨S110592, .i32⟩ : BufTy).Contents (Elt Ideal)} {y3 : (⟨S12288, .i32⟩ : BufTy).Contents (Elt Ideal)}
    {y4 y5 : (⟨S128x128, .f32⟩ : BufTy).Contents (Elt Ideal)} {y6 : (⟨S128, .f32⟩ : BufTy).Contents (Elt Ideal)} {y7 y8 : (⟨S128x128, .f32⟩ : BufTy).Contents (Elt Ideal)} {y9 : (⟨S128, .f32⟩ : BufTy).Contents (Elt Ideal)}
    {y10 y11 : (⟨S128x128, .f32⟩ : BufTy).Contents (Elt Ideal)} {y12 : (⟨S128, .f32⟩ : BufTy).Contents (Elt Ideal)} {y13 : (⟨S128x128, .f32⟩ : BufTy).Contents (Elt Ideal)} {y14 : (⟨S128, .f32⟩ : BufTy).Contents (Elt Ideal)}
    {y15 : (⟨S128x128, .f32⟩ : BufTy).Contents (Elt Ideal)} {y16 : (⟨S128, .f32⟩ : BufTy).Contents (Elt Ideal)} {y17 : (⟨S128x1, .f32⟩ : BufTy).Contents (Elt Ideal)} {y18 : (⟨S1, .f32⟩ : BufTy).Contents (Elt Ideal)}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) :
    val_main_v73 (F := Ideal) x0 x1 x2 x3 x4 x5 x6 x7 x8 x9 x10 x11 x12 x13 x14 x15 x16 x17 x18 = val_main_v73 (F := Ideal) y0 y1 y2 y3 y4 y5 y6 y7 y8 y9 y10 y11 y12 y13 y14 y15 y16 y17 y18
      ∧ val_main_v88 (F := Ideal) x0 x1 x2 x3 x4 x5 x6 x7 x8 x9 x10 x11 x12 x13 x14 x15 x16 x17 x18 = val_main_v88 (F := Ideal) y0 y1 y2 y3 y4 y5 y6 y7 y8 y9 y10 y11 y12 y13 y14 y15 y16 y17 y18 := by
  subst h0 h1 h2 h3 h4 h5 h6 h7 h8 h9 h10 h11 h12 h13 h14 h15 h16 h17 h18
  exact ⟨rfl, rfl⟩

end Congruence

section Claims

variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the reference's two result stages of the (agreeing) argument arrays. -/
theorem algebraic : Cert.algebraic_KernelIdeal_ReferenceIdeal := by
  intro m ρ m' ρ' _ hagree
  refine ⟨fun c => Cert.ReferenceIdeal.Read.val_main_v73 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    fun c => Cert.ReferenceIdeal.Read.val_main_v88 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.Sage.result_pos m ρ c), (h c).2.1.trans (Cert.Sage.result_neg m ρ c), (h c).2.2⟩)
      (Cert.KernelIdeal.Named.run_named m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14, h15, h16, h17, h18⟩ := hagree c
      exact (Cert.ReferenceIdeal.Read.val_main_v73_eq m' c).trans (results_congr h0 h1 h2 h3 h4 h5 h6 h7 h8 h9 h10 h11 h12 h13 h14 h15 h16 h17 h18).1
    · obtain ⟨h0, h1, h2, h3, h4, h5, h6, h7, h8, h9, h10, h11, h12, h13, h14, h15, h16, h17, h18⟩ := hagree c
      exact (Cert.ReferenceIdeal.Read.val_main_v88_eq m' c).trans (results_congr h0 h1 h2 h3 h4 h5 h6 h7 h8 h9 h10 h11 h12 h13 h14 h15 h16 h17 h18).2

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
